-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256 .f32) (main_arg5 : FVec F S1024x256 .f32) (main_arg6 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1024x256 .f32 := Host.absf main_arg5
  let main_cst_8 : FVec F S_ .f32 := constant S_ .f32 0x7F800000#32
  let main_v25 : FVec F S1024x256 .f32 := broadcastInDim S1024x256 ![] bcast_S_S1024x256 main_cst_8
  let main_v26 : IVec S1024x256 1 := cmpf .olt main_v24 main_v25
  let main_c_9 : IVec S_ 1 := constantI S_ 1 1#1
  let main_v27 : IVec S_ 1 := (fun x v => Host.reduce IntOp.andi x v reducesTo_S1024x256_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x4096x1024 .f32) (main_arg1 : FVec F S256x1024 .f32) (main_arg2 : FVec F S256 .f32) (main_arg3 : FVec F S256 .f32) (main_arg4 : FVec F S256 .f32) (main_arg5 : FVec F S1024x256 .f32) (main_arg6 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S8x4096x1024 : Shape := ⟨3, ![8, 4096, 1024]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S1x256 : Shape := ⟨2, ![1, 256]⟩
abbrev S1x1024 : Shape := ⟨2, ![1, 1024]⟩
abbrev S8x64x256 : Shape := ⟨3, ![8, 64, 256]⟩
abbrev S1x1024x1024 : Shape := ⟨3, ![1, 1024, 1024]⟩
abbrev S1x16x256 : Shape := ⟨3, ![1, 16, 256]⟩
abbrev S1024x1024 : Shape := ⟨2, ![1024, 1024]⟩
abbrev S16x64x256 : Shape := ⟨3, ![16, 64, 256]⟩
abbrev S16x256 : Shape := ⟨2, ![16, 256]⟩
abbrev S_ : Shape := ⟨0, ![]⟩
abbrev S1x1x256 : Shape := ⟨3, ![1, 1, 256]⟩
abbrev S8x64x1024 : Shape := ⟨3, ![8, 64, 1024]⟩
abbrev S1x64x256 : Shape := ⟨3, ![1, 64, 256]⟩
abbrev S1x64x1024 : Shape := ⟨3, ![1, 64, 1024]⟩
abbrev S64x256 : Shape := ⟨2, ![64, 256]⟩
abbrev S64x1024 : Shape := ⟨2, ![64, 1024]⟩

abbrev nBuf : Space → Nat
  | .hbm => 31
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S1024x256, .f32⟩
  | .hbm, ⟨8, _⟩ => ⟨S1x256, .f32⟩
  | .hbm, ⟨9, _⟩ => ⟨S256x1024, .f32⟩
  | .hbm, ⟨10, _⟩ => ⟨S1x1024, .f32⟩
  | .hbm, ⟨11, _⟩ => ⟨S8x64x256, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S1x1x256, .f32⟩
  | .hbm, ⟨18, _⟩ => ⟨S8x64x256, .f32⟩
  | .hbm, ⟨19, _⟩ => ⟨S8x64x256, .f32⟩
  | .hbm, ⟨20, _⟩ => ⟨S8x64x256, .f32⟩
  | .hbm, ⟨21, _⟩ => ⟨S_, .f32⟩
  | .hbm, ⟨22, _⟩ => ⟨S256, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S8x64x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x256, .f32⟩
  | .local _ .vmem, ⟨3, _⟩ => ⟨S1x256, .f32⟩
  | .local _ .vmem, ⟨4, _⟩ => ⟨S1x16x256, .f32⟩
  | .local _ .vmem, ⟨5, _⟩ => ⟨S1x16x256, .f32⟩
  | .local _ .vmem, ⟨6, _⟩ => ⟨S1x64x256, .f32⟩
  | .local _ .vmem, ⟨7, _⟩ => ⟨S1x64x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x1024, .f32⟩
  | .local _ .vmem, ⟨13, _⟩ => ⟨S1x1024, .f32⟩
  | .local _ .vmem, ⟨14, _⟩ => ⟨S1x64x1024, .f32⟩
  | .local _ .vmem, ⟨15, _⟩ => ⟨S1x64x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x64x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S256x1024_S1024x256_1_0 : S256x1024.Transposes [1, 0] S1024x256
  shapeCasts_S256_S1x256 : S256.ShapeCasts S1x256
  transposes_S1024x256_S256x1024_1_0 : S1024x256.Transposes [1, 0] S256x1024
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1024x256_S16x64x256 : S1024x256.ShapeCasts S16x64x256
  reduces_S16x64x256_S16x256 : S16x64x256.Reduces [1] S16x256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  shapeCasts_S16x256_S1x16x256 : S16x256.ShapeCasts S1x16x256
  reducesTo_S8x64x256_S256_d0_1 : S8x64x256.ReducesTo [0, 1] S256
  h_S_ : 0 < S_.numel
  bcast_S_S256 : S_.BroadcastsInDim S256 (![] : Fin 0 → Fin S256.rank)
  bcast_S256_S1x1x256_2 : S256.BroadcastsInDim S1x1x256 (![2] : Fin 1 → Fin S1x1x256.rank)
  bcast_S1x1x256_S8x64x256_0_1_2 : S1x1x256.BroadcastsInDim S8x64x256 (![0, 1, 2] : Fin 3 → Fin S8x64x256.rank)
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  broadcasts_S1x256_S64x256 : S1x256.Broadcasts S64x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  dot_S1024x1024_S1024x256_S1024x256_1_0_0_1_n_n_wf : DotDims.WF S1024x1024 S1024x256 S1024x256 [1] [0] [0] [1] [] []
  dot_S64x256_S256x1024_S64x1024_1_0_0_1_n_n_wf : DotDims.WF S64x256 S256x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256.size a ≤ S8x64x256.size a
  hwx0_3 : ∀ i : grid0.Coords, EltTy.bits .f32 = 32 ∨ (Rect.block (s := S8x64x256) S1x16x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x256.size a ≤ S8x64x256.size a
  hwx1_0 : ∀ i : grid1.Coords, EltTy.bits .f32 = 32 ∨ (Rect.block (s := S8x64x256) S1x64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S256x1024.size a
  hwx1_5 : ∀ i : grid1.Coords, EltTy.bits .f32 = 32 ∨ (Rect.block (s := S256x1024) S256x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x1024.size a ≤ S8x64x1024.size a
  hwx1_7 : ∀ i : grid1.Coords, EltTy.bits .f32 = 32 ∨ (Rect.block (s := S8x64x1024) S1x64x1024.size (cc1_transform_7 i) (hinb1_7 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S64x256_S256x1024_S64x1024_1_0_0_1_n_n : DotDims S64x256 S256x1024 S64x1024 where
  lhsContracting := [1]
  rhsContracting := [0]
  lhsNonContracting := [0]
  rhsNonContracting := [1]
  lhsBatch := []
  rhsBatch := []
  wf := dot_S64x256_S256x1024_S64x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x64x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S256x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x64x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S8x4096x256 : Shape := ⟨3, ![8, 4096, 256]⟩
abbrev S1x1x256 : Shape := ⟨3, ![1, 1, 256]⟩
abbrev S8x64x64x256 : Shape := ⟨4, ![8, 64, 64, 256]⟩
abbrev S_ : Shape := ⟨0, ![]⟩
abbrev S8x64x256 : Shape := ⟨3, ![8, 64, 256]⟩
abbrev S8x64x1024 : Shape := ⟨3, ![8, 64, 1024]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S256x1024, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S8x4096x256, .f32⟩
  | .hbm, ⟨8, _⟩ => ⟨S1x1x256, .f32⟩
  | .hbm, ⟨9, _⟩ => ⟨S8x4096x256, .f32⟩
  | .hbm, ⟨10, _⟩ => ⟨S8x4096x256, .f32⟩
  | .hbm, ⟨11, _⟩ => ⟨S8x64x64x256, .f32⟩
  | .hbm, ⟨12, _⟩ => ⟨S_, .f32⟩
  | .hbm, ⟨13, _⟩ => ⟨S8x64x256, .f32⟩
  | .hbm, ⟨14, _⟩ => ⟨S_, .f32⟩
  | .hbm, ⟨15, _⟩ => ⟨S8x64x256, .f32⟩
  | .hbm, ⟨16, _⟩ => ⟨S8x64x256, .f32⟩
  | .hbm, ⟨17, _⟩ => ⟨S_, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S1x1x256, .f32⟩
  | .hbm, ⟨23, _⟩ => ⟨S8x64x256, .f32⟩
  | .hbm, ⟨24, _⟩ => ⟨S8x64x256, .f32⟩
  | .hbm, ⟨25, _⟩ => ⟨S8x64x256, .f32⟩
  | .hbm, ⟨26, _⟩ => ⟨S_, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S1x1x256, .f32⟩
  | .hbm, ⟨32, _⟩ => ⟨S8x64x256, .f32⟩
  | .hbm, ⟨33, _⟩ => ⟨S8x64x256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S1x1x256, .f32⟩
  | .hbm, ⟨39, _⟩ => ⟨S8x64x256, .f32⟩
  | .hbm, ⟨40, _⟩ => ⟨S8x64x256, .f32⟩
  | .hbm, ⟨41, _⟩ => ⟨S1x1x256, .f32⟩
  | .hbm, ⟨42, _⟩ => ⟨S8x64x256, .f32⟩
  | .hbm, ⟨43, _⟩ => ⟨S8x64x256, .f32⟩
  | .hbm, ⟨44, _⟩ => ⟨S1x1x256, .f32⟩
  | .hbm, ⟨45, _⟩ => ⟨S8x64x256, .f32⟩
  | .hbm, ⟨46, _⟩ => ⟨S8x64x256, .f32⟩
  | .hbm, ⟨47, _⟩ => ⟨S8x64x1024, .f32⟩
  | .hbm, ⟨48, _⟩ => ⟨S1x1x1024, .f32⟩
  | .hbm, ⟨49, _⟩ => ⟨S8x64x1024, .f32⟩
  | .hbm, ⟨50, _⟩ => ⟨S8x64x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  shapeCasts_S8x4096x256_S8x64x64x256 : S8x4096x256.ShapeCasts S8x64x64x256
  reducesTo_S8x64x64x256_S8x64x256_d2 : S8x64x64x256.ReducesTo [2] S8x64x256
  h_S_ : 0 < S_.numel
  bcast_S_S8x64x256 : S_.BroadcastsInDim S8x64x256 (![] : Fin 0 → Fin S8x64x256.rank)
  reducesTo_S8x64x256_S256_d0_1 : S8x64x256.ReducesTo [0, 1] S256
  bcast_S_S256 : S_.BroadcastsInDim S256 (![] : Fin 0 → Fin S256.rank)
  bcast_S1x1x256_S8x64x256_0_1_2 : S1x1x256.BroadcastsInDim S8x64x256 (![0, 1, 2] : Fin 3 → Fin S8x64x256.rank)
  bcast_S1024_S1x1x1024_2 : S1024.BroadcastsInDim S1x1x1024 (![2] : Fin 1 → Fin S1x1x1024.rank)
  bcast_S1x1x1024_S8x64x1024_0_1_2 : S1x1x1024.BroadcastsInDim S8x64x1024 (![0, 1, 2] : Fin 3 → Fin S8x64x1024.rank)
  dot_S8x4096x1024_S256x1024_S8x4096x256_2_1_01_0_n_n_wf : DotDims.WF S8x4096x1024 S256x1024 S8x4096x256 [2] [1] [0, 1] [0] [] []
  dot_S8x64x256_S1024x256_S8x64x1024_2_1_01_0_n_n_wf : DotDims.WF S8x64x256 S1024x256 S8x64x1024 [2] [1] [0, 1] [0] [] []

variable [Facts₀]

def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf
def dot_S8x64x256_S1024x256_S8x64x1024_2_1_01_0_n_n : DotDims S8x64x256 S1024x256 S8x64x1024 where
  lhsContracting := [2]
  rhsContracting := [1]
  lhsNonContracting := [0, 1]
  rhsNonContracting := [0]
  lhsBatch := []
  rhsBatch := []
  wf := dot_S8x64x256_S1024x256_S8x64x1024_2_1_01_0_n_n_wf

class Facts : Prop extends Facts₀ where

variable [Facts]
-- ==== Proof.Spec.lean ====
/-
  What both programs compute, as functions of the argument arrays, entry by entry, on the extended reals.

  * the down projection  proj[b,s,c] = ∑_d h[b,s,d] · W_down[c,d] + b_down[c];
  * the pooled activations  pool[b,p,c] = max (max_{w < 64} proj[b, 64 p + w, c]) 0  (the inner maximum starts from -∞);
  * for ANY per-channel statistics `mean`, `var` (both programs obtain them from the pooled activations by the very
    same host operations, so they are never opened here) the normalised activations
      normed[b,p,c] = (P[b,p,c] - mean[c]) · rsqrt (var[c] + ε) · γ[c] + β[c];
  * the up projection  out[b,p,d] = ∑_c normed[b,p,c] · W_up[d,c] + b_up[d].

  The same three functions are also stated over the operands as a kernel region receives them: the weight matrices
  transposed and the per-channel vectors as one-row matrices (`poolT`, `outT`); `poolT_eq` and `outT_eq` say that
  reading a transposed matrix at (d, c) and a one-row matrix at (0, c) gives back the first forms.
-/
import Idealize.ShloMosaic.PureOps.Ideal
import Idealize.ShloMosaic.PureOps.Ideal.Laws
import Idealize.ShloMosaic.Lib.ValueIdx

noncomputable section

namespace Cert.Pooling

open Idealize.ShloMosaic Idealize.ShloMosaic.ValueIdx

/-- The `w`-th row of pooling window `p`: row `64 p + w` of the sequence. -/
def winRow (p w : Fin 64) : Fin 4096 := ⟨p.val * 64 + w.val, by have := p.isLt; have := w.isLt; omega⟩

/-- The value -∞ the running maximum starts from. -/
def negInf : EReal := Ideal.ofBits .f32 0xFF800000#32
/-- The zero the pooled maximum is clamped at. -/
def zero32 : EReal := Ideal.ofBits .f32 0x00000000#32
/-- The constant added to the variance under the reciprocal square root. -/
def eps : EReal := Ideal.ofBits .f32 0x3727C5AC#32

/-- One entry of the down projection. -/
def proj (h : (⟨3, ![8, 4096, 1024]⟩ : Shape).Idx → EReal) (wd : (⟨2, ![256, 1024]⟩ : Shape).Idx → EReal)
    (bd : (⟨1, ![256]⟩ : Shape).Idx → EReal) (b : Fin 8) (s : Fin 4096) (c : Fin 256) : EReal :=
  (∑ d : Fin 1024, h (ix3 b s d) * wd (ix2 c d)) + bd (ix1 c)

/-- One pooled activation: the maximum of a window's 64 projected rows, clamped below at zero. -/
def poolAt (h : (⟨3, ![8, 4096, 1024]⟩ : Shape).Idx → EReal) (wd : (⟨2, ![256, 1024]⟩ : Shape).Idx → EReal)
    (bd : (⟨1, ![256]⟩ : Shape).Idx → EReal) (b : Fin 8) (p : Fin 64) (c : Fin 256) : EReal :=
  max ((Finset.univ : Finset (Fin 64)).fold max negInf (fun w => proj h wd bd b (winRow p w) c)) zero32

/-- The pooled activations as an array. -/
def pool (h : (⟨3, ![8, 4096, 1024]⟩ : Shape).Idx → EReal) (wd : (⟨2, ![256, 1024]⟩ : Shape).Idx → EReal)
    (bd : (⟨1, ![256]⟩ : Shape).Idx → EReal) : (⟨3, ![8, 64, 256]⟩ : Shape).Idx → EReal :=
  fun i => poolAt h wd bd (i 0) (i 1) (i 2)

/-- One normalised activation, for given per-channel statistics. -/
def normed (P : (⟨3, ![8, 64, 256]⟩ : Shape).Idx → EReal) (mean var gamma beta : (⟨1, ![256]⟩ : Shape).Idx → EReal)
    (b : Fin 8) (p : Fin 64) (c : Fin 256) : EReal :=
  (P (ix3 b p c) - mean (ix1 c)) * Ideal.rsqrt (var (ix1 c) + eps) * gamma (ix1 c) + beta (ix1 c)

/-- One entry of the up projection of the normalised activations. -/
def outAt (P : (⟨3, ![8, 64, 256]⟩ : Shape).Idx → EReal) (mean var gamma beta : (⟨1, ![256]⟩ : Shape).Idx → EReal)
    (wu : (⟨2, ![1024, 256]⟩ : Shape).Idx → EReal) (bu : (⟨1, ![1024]⟩ : Shape).Idx → EReal)
    (b : Fin 8) (p : Fin 64) (d : Fin 1024) : EReal :=
  (∑ c : Fin 256, normed P mean var gamma beta b p c * wu (ix2 d c)) + bu (ix1 d)

/-- The result as an array. -/
def out (P : (⟨3, ![8, 64, 256]⟩ : Shape).Idx → EReal) (mean var gamma beta : (⟨1, ![256]⟩ : Shape).Idx → EReal)
    (wu : (⟨2, ![1024, 256]⟩ : Shape).Idx → EReal) (bu : (⟨1, ![1024]⟩ : Shape).Idx → EReal) :
    (⟨3, ![8, 64, 1024]⟩ : Shape).Idx → EReal :=
  fun i => outAt P mean var gamma beta wu bu (i 0) (i 1) (i 2)

/-! ## The same functions over the operands a kernel region receives -/

/-- One pooled activation from the transposed down weights (a 1024 × 256 matrix) and the bias as a one-row matrix. -/
def poolTAt (h : (⟨3, ![8, 4096, 1024]⟩ : Shape).Idx → EReal) (wdt : (⟨2, ![1024, 256]⟩ : Shape).Idx → EReal)
    (bd2 : (⟨2, ![1, 256]⟩ : Shape).Idx → EReal) (b : Fin 8) (p : Fin 64) (c : Fin 256) : EReal :=
  max ((Finset.univ : Finset (Fin 64)).fold max negInf
    (fun w => (∑ d : Fin 1024, h (ix3 b (winRow p w) d) * wdt (ix2 d c)) + bd2 (ix2 (0 : Fin 1) c))) zero32

/-- The pooled activations over those operands, as an array. -/
def poolT (h : (⟨3, ![8, 4096, 1024]⟩ : Shape).Idx → EReal) (wdt : (⟨2, ![1024, 256]⟩ : Shape).Idx → EReal)
    (bd2 : (⟨2, ![1, 256]⟩ : Shape).Idx → EReal) : (⟨3, ![8, 64, 256]⟩ : Shape).Idx → EReal :=
  fun i => poolTAt h wdt bd2 (i 0) (i 1) (i 2)

/-- One entry of the result from the pooled activations, the statistics, scale and shift as one-row matrices, the
    transposed up weights (a 256 × 1024 matrix) and the bias as a one-row matrix. -/
def outTAt (P : (⟨3, ![8, 64, 256]⟩ : Shape).Idx → EReal) (mean2 var2 gamma2 beta2 : (⟨2, ![1, 256]⟩ : Shape).Idx → EReal)
    (wut : (⟨2, ![256, 1024]⟩ : Shape).Idx → EReal) (bu2 : (⟨2, ![1, 1024]⟩ : Shape).Idx → EReal)
    (b : Fin 8) (p : Fin 64) (d : Fin 1024) : EReal :=
  (∑ c : Fin 256,
      ((P (ix3 b p c) - mean2 (ix2 (0 : Fin 1) c)) * Ideal.rsqrt (var2 (ix2 (0 : Fin 1) c) + eps) * gamma2 (ix2 (0 : Fin 1) c)
        + beta2 (ix2 (0 : Fin 1) c)) * wut (ix2 c d))
    + bu2 (ix2 (0 : Fin 1) d)

/-- The result over those operands, as an array. -/
def outT (P : (⟨3, ![8, 64, 256]⟩ : Shape).Idx → EReal) (mean2 var2 gamma2 beta2 : (⟨2, ![1, 256]⟩ : Shape).Idx → EReal)
    (wut : (⟨2, ![256, 1024]⟩ : Shape).Idx → EReal) (bu2 : (⟨2, ![1, 1024]⟩ : Shape).Idx → EReal) :
    (⟨3, ![8, 64, 1024]⟩ : Shape).Idx → EReal :=
  fun i => outTAt P mean2 var2 gamma2 beta2 wut bu2 (i 0) (i 1) (i 2)

/-- Reading the transposed weights at (d, c) and the one-row bias at (0, c) is the first form. -/
theorem poolT_eq (h : (⟨3, ![8, 4096, 1024]⟩ : Shape).Idx → EReal) (wd : (⟨2, ![256, 1024]⟩ : Shape).Idx → EReal)
    (bd : (⟨1, ![256]⟩ : Shape).Idx → EReal) (wdt : (⟨2, ![1024, 256]⟩ : Shape).Idx → EReal)
    (bd2 : (⟨2, ![1, 256]⟩ : Shape).Idx → EReal)
    (hw : ∀ (d : Fin 1024) (c : Fin 256), wdt (ix2 d c) = wd (ix2 c d))
    (hb : ∀ c : Fin 256, bd2 (ix2 (0 : Fin 1) c) = bd (ix1 c)) :
    poolT h wdt bd2 = pool h wd bd := by
  have key : ∀ (b : Fin 8) (p : Fin 64) (c : Fin 256), poolTAt h wdt bd2 b p c = poolAt h wd bd b p c := by
    intro b p c
    unfold poolTAt poolAt proj
    simp only [hw, hb]
  exact funext fun i => key (i 0) (i 1) (i 2)

/-- Reading the transposed weights at (c, d) and the one-row vectors at (0, c) is the first form. -/
theorem outT_eq (P : (⟨3, ![8, 64, 256]⟩ : Shape).Idx → EReal) (mean var gamma beta : (⟨1, ![256]⟩ : Shape).Idx → EReal)
    (wu : (⟨2, ![1024, 256]⟩ : Shape).Idx → EReal) (bu : (⟨1, ![1024]⟩ : Shape).Idx → EReal)
    (mean2 var2 gamma2 beta2 : (⟨2, ![1, 256]⟩ : Shape).Idx → EReal)
    (wut : (⟨2, ![256, 1024]⟩ : Shape).Idx → EReal) (bu2 : (⟨2, ![1, 1024]⟩ : Shape).Idx → EReal)
    (hm : ∀ c : Fin 256, mean2 (ix2 (0 : Fin 1) c) = mean (ix1 c))
    (hv : ∀ c : Fin 256, var2 (ix2 (0 : Fin 1) c) = var (ix1 c))
    (hg : ∀ c : Fin 256, gamma2 (ix2 (0 : Fin 1) c) = gamma (ix1 c))
    (hbt : ∀ c : Fin 256, beta2 (ix2 (0 : Fin 1) c) = beta (ix1 c))
    (hw : ∀ (c : Fin 256) (d : Fin 1024), wut (ix2 c d) = wu (ix2 d c))
    (hb : ∀ d : Fin 1024, bu2 (ix2 (0 : Fin 1) d) = bu (ix1 d)) :
    outT P mean2 var2 gamma2 beta2 wut bu2 = out P mean var gamma beta wu bu := by
  have key : ∀ (b : Fin 8) (p : Fin 64) (d : Fin 1024),
      outTAt P mean2 var2 gamma2 beta2 wut bu2 b p d = outAt P mean var gamma beta wu bu b p d := by
    intro b p d
    unfold outTAt outAt normed
    simp only [hm, hv, hg, hbt, hw, hb]
  exact funext fun i => key (i 0) (i 1) (i 2)

end Cert.Pooling

end
-- ==== Proof.PoolValue.lean ====
/-
  The first kernel region's output array: whatever contents `V` the region finds, after its 32 grid points the array of
  output window 3 holds the pooled activations `poolT` of the three arrays its input windows read.

  In three steps. The body's arithmetic read at one index of the block it stores (`pay_apply`): the product of the
  activations' block and the weights plus the bias row, regrouped as 16 windows of 64 rows, the maximum over a window's
  rows from -∞, clamped at zero. What a grid point writes back is its block of `poolT` (`flushed_eq`): at point (b, s)
  row `64 q + w` of the activations' block is row `1024 s + 64 q + w = 64 (16 s + q) + w` of the sequence, row `w` of
  pooling window `16 s + q`. The 32 blocks cover the array (`cover`), so the array ends holding `poolT`.
-/
import proofs.«139167_j28656021799561_1_alg».proof.Proof.Gen.KernelIdeal.Frame
import proofs.«139167_j28656021799561_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.PoolValue

open Cert.KernelIdeal Cert.KernelIdeal.Gen Cert.Pooling

variable (V : (c : Dev nD) → (b : Ref sig .tc) → Buf (Elt Ideal) ((c : Thread nD τ).loc b))

/-! ## The down projection's dot: its operand indices, axis by axis -/

theorem lhs_down_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_down_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_down_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_down_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The product of a 1024 × 1024 matrix and a 1024 × 256 matrix into a zero accumulator, at (r, c): the sum over d of
    the left at (r, d) times the right at (d, c). -/
theorem matmul_down_apply (A : FVec Ideal S1024x1024 .bf16) (B : FVec Ideal S1024x256 .bf16) (r : Fin 1024) (c : Fin 256) :
    matmul dot_S1024x1024_S1024x256_S1024x256_1_0_0_1_n_n none A B (constant (F := Ideal) S1024x256 .f32 0x00000000#32) (ix2 r c)
      = ∑ d : Fin 1024, A (ix2 r d) * B (ix2 d c) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 r c) ((ValueIdx.contrEquiv1 dot_S1024x1024_S1024x256_S1024x256_1_0_0_1_n_n 1024 rfl rfl).symm k) = ix2 r k := funext fun a => Fin.ext (by
    match a with
    | ⟨0, _⟩ => exact lhs_down_0 _ _
    | ⟨1, _⟩ => exact (lhs_down_1 _ _).trans hk)
  have er : dot_S1024x1024_S1024x256_S1024x256_1_0_0_1_n_n.rhsIdx (ix2 r c) ((ValueIdx.contrEquiv1 dot_S1024x1024_S1024x256_S1024x256_1_0_0_1_n_n 1024 rfl rfl).symm k) = ix2 k c := funext fun a => Fin.ext (by
    match a with
    | ⟨0, _⟩ => exact (rhs_down_0 _ _).trans hk
    | ⟨1, _⟩ => exact rhs_down_1 _ _)
  rw [el, er]

/-! ## The body's arithmetic at one index of the block it stores -/

/-- Row `64 q + w` of a block of 1024 rows: row `w` of the block's pooling window `q`. -/
def blkRow (q : Fin 16) (w : Fin 64) : Fin 1024 := ⟨q.val * 64 + w.val, by have := q.isLt; have := w.isLt; omega⟩

/-- The 1024 rows regrouped as 16 windows of 64 read, at (q, w, c), row `64 q + w`. -/
theorem group_rows_apply {α : Type} (x : S1024x256.Idx → α) (h : S1024x256.ShapeCasts S16x64x256) (q : Fin 16) (w : Fin 64)
    (c : Fin 256) : shapeCast S16x64x256 x h (ix3 q w c) = x (ix2 (blkRow q w) c) :=
  shapeCast_apply x h _ _ (by
    rw [Shape.rowMajor_val_three, Shape.rowMajor_val_two]
    rfl)

/-- The index of window `q`, lane `c` with row `w` put back on the reduced middle axis. -/
theorem lift_mid (h : S16x64x256.Reduces [1] S16x256) (q : Fin 16) (c : Fin 256) (w : Fin 64) :
    h.lift (ix2 q c) w = ix3 q w c := by
  funext a; apply Fin.ext
  match a with
  | ⟨0, _⟩ => rfl
  | ⟨1, _⟩ => rfl
  | ⟨2, _⟩ => rfl

/-- THE BODY'S ARITHMETIC AT AN INDEX. At (0, q, c) of the block it stores the body leaves the maximum, over the 64
    rows of the block's window `q`, of the projected rows' lane `c` (the running maximum starting from -∞), clamped
    below at zero. -/
theorem pay_apply (x0 : Vec Ideal S1x1024x1024 .f32) (x1 : Vec Ideal S1024x256 .f32) (x2 : Vec Ideal S1x256 .f32)
    (u : Fin 1) (q : Fin 16) (c : Fin 256) :
    k0_pay1 x0 x1 x2 (ix3 u q c) =
      max ((Finset.univ : Finset (Fin 64)).fold max negInf
        (fun w => (∑ d : Fin 1024, x0 (ix3 (0 : Fin 1) (blkRow q w) d) * x1 (ix2 d c)) + x2 (ix2 (0 : Fin 1) c))) zero32 := by
  unfold k0_pay1
  refine (shapeCast_ab_1ab_apply _ _ u q c).trans ?_
  refine (maximumf_apply _ _ _).trans ?_
  refine congrArg₂ max ?_ rfl
  refine (Ideal.multiReduction_maximumf_single _ _ _ _ _ _).trans ?_
  refine congrArg₂ (fun b f => (Finset.univ : Finset (Fin 64)).fold max b f) rfl (funext fun w => ?_)
  refine (congrArg _ (lift_mid _ q c w)).trans ?_
  refine (group_rows_apply _ _ q w c).trans ?_
  refine (addf_apply _ _ _).trans ?_
  refine congrArg₂ (· + ·) ?_ ?_
  · refine (matmul_down_apply _ _ (blkRow q w) c).trans ?_
    refine Finset.sum_congr rfl fun d _ => ?_
    refine congrArg₂ (· * ·) ?_ ?_
    · exact shapeCast_1ab_ab_apply x0 _ (blkRow q w) d
    · exact congrFun (shapeCast_self x1 _) (ix2 d c)
  · refine (broadcastTo_1b_ab_apply _ _ (blkRow q w) c).trans ?_
    exact congrFun (shapeCast_self x2 _) _

/-! ## The blocks the windows read and write at a grid point -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: the activations' window moves with the output's on the
    batch and sequence axes, the weights' and the bias's windows stay at block zero, and the output's block indices
    stay in their ranges. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 7 ∧ win0_3.index t (1 : Fin 3) ≤ 3 ∧ win0_3.index t (2 : Fin 3) = 0 :=
  (by decide +kernel : ∀ t : Fin grid0.N, _)

/-- Every block of the output array is some grid point's. -/
theorem idx_onto : ∀ (b : Fin 8) (s : Fin 4), ∃ t : Fin cfg0.N, win0_3.index t = ![b.val, s.val, 0] :=
  (by decide +kernel : ∀ (b : Fin 8) (s : Fin 4), ∃ t : Fin grid0.N, win0_3.index t = ![b.val, s.val, 0])

/-- The activations' block at point `t`, at (0, r, d), is the array at the output block's batch index, row
    `1024 s + r` for the output block's sequence index `s`, column `d`. -/
theorem read_act (c : Dev nD) (t : Fin cfg0.N) (r d : Fin 1024) (k : S8x4096x1024.Idx)
    (h0 : (k 0).val = win0_3.index t (0 : Fin 3)) (h1 : (k 1).val = win0_3.index t (1 : Fin 3) * 1024 + r.val)
    (h2 : (k 2).val = d.val) :
    iblk0 V c 0 t (ix3 (0 : Fin 1) r d) = V c main_arg0 k := by
  obtain ⟨e0, e1, e2, -⟩ := idx_facts t
  unfold iblk0
  rw [View.read_apply]
  show V c main_arg0 (((cfg0.win 0).blk t).view.emb (ix3 (0 : Fin 1) r d)) = V c main_arg0 k
  refine congrArg _ (funext fun a => Fin.ext ?_)
  match a with
  | ⟨0, _⟩ => show win0_0.index t (0 : Fin 3) * 1 + 1 * 0 = (k 0).val; omega
  | ⟨1, _⟩ => show win0_0.index t (1 : Fin 3) * 1024 + 1 * r.val = (k 1).val; omega
  | ⟨2, _⟩ => show win0_0.index t (2 : Fin 3) * 1024 + 1 * d.val = (k 2).val; omega

/-- The weights' block at every point is the whole matrix. -/
theorem read_wt (c : Dev nD) (t : Fin cfg0.N) (d : Fin 1024) (l : Fin 256) :
    iblk0 V c 1 t (ix2 d l) = V c main_v0 (ix2 d l) := by
  obtain ⟨-, -, -, e0, e1, -⟩ := idx_facts t
  unfold iblk0
  rw [View.read_apply]
  show V c main_v0 (((cfg0.win 1).blk t).view.emb (ix2 d l)) = V c main_v0 (ix2 d l)
  refine congrArg _ (funext fun a => Fin.ext ?_)
  match a with
  | ⟨0, _⟩ => show win0_1.index t (0 : Fin 2) * 1024 + 1 * d.val = d.val; omega
  | ⟨1, _⟩ => show win0_1.index t (1 : Fin 2) * 256 + 1 * l.val = l.val; omega

/-- The bias's block at every point is the whole row. -/
theorem read_bias (c : Dev nD) (t : Fin cfg0.N) (l : Fin 256) :
    iblk0 V c 2 t (ix2 (0 : Fin 1) l) = V c main_v1 (ix2 (0 : Fin 1) l) := by
  obtain ⟨-, -, -, -, -, e0, e1, -⟩ := idx_facts t
  unfold iblk0
  rw [View.read_apply]
  show V c main_v1 (((cfg0.win 2).blk t).view.emb (ix2 (0 : Fin 1) l)) = V c main_v1 (ix2 (0 : Fin 1) l)
  refine congrArg _ (funext fun a => Fin.ext ?_)
  match a with
  | ⟨0, _⟩ => show win0_2.index t (0 : Fin 2) * 1 + 1 * 0 = 0; omega
  | ⟨1, _⟩ => show win0_2.index t (1 : Fin 2) * 256 + 1 * l.val = l.val; omega

/-- At point `t` the body's value at (u, q, l) of the block it stores is the pooled activation of batch `b`, pooling
    window `p`, lane `l`, for the batch index `b` and the window `p = 16 s + q` the output's block indices name:
    row `1024 s + 64 q + w` of the sequence is row `w` of window `p`. -/
theorem point_val (c : Dev nD) (t : Fin cfg0.N) (u : Fin 1) (q : Fin 16) (l : Fin 256) (b : Fin 8) (p : Fin 64) (l' : Fin 256)
    (hb : b.val = win0_3.index t (0 : Fin 3)) (hp : p.val = win0_3.index t (1 : Fin 3) * 16 + q.val) (hl : l' = l) :
    k0_pay1 (iblk0 V c 0 t) (iblk0 V c 1 t) (iblk0 V c 2 t) (ix3 u q l)
      = poolTAt (V c main_arg0) (V c main_v0) (V c main_v1) b p l' := by
  subst hl
  refine (pay_apply _ _ _ u q l').trans ?_
  unfold poolTAt
  refine congrArg₂ max (congrArg (fun f => Finset.fold max negInf f Finset.univ) (funext fun w => ?_)) rfl
  refine congrArg₂ (· + ·) (Finset.sum_congr rfl fun d _ => congrArg₂ (· * ·) ?_ ?_) ?_
  · exact read_act V c t (blkRow q w) d (ix3 b (winRow p w) d) hb
      (by show p.val * 64 + w.val = win0_3.index t (1 : Fin 3) * 1024 + (q.val * 64 + w.val); omega) rfl
  · exact read_wt V c t d l'
  · exact read_bias V c t l'

/-- WHAT POINT `t` WRITES BACK is block `t` of the pooled activations of the arrays the region found. -/
theorem flushed_eq (c : Dev nD) (t : Fin cfg0.N) :
    (dat0 V c).flushed 3 t
      = ((cfg0.win 3).blk t).view.read (Elt Ideal) (poolT (V c main_arg0) (V c main_v0) (V c main_v1)) := by
  show (cfg0.win 3).cut (grid0.coords t) ((dat0 V c).after 3 t) = _
  rw [after0_3]
  unfold out0_3
  rw [View.canon_unit_zero hz3]
  simp only [View.ld_unit_zero (S := S1x1024x1024) hz3, View.ld_unit_zero (S := S1024x256) hz2, View.ld_unit_zero (S := S1x256) hz2]
  obtain ⟨-, -, -, -, -, -, -, -, -, b2⟩ := idx_facts t
  funext j
  obtain ⟨u, q, l, rfl⟩ : ∃ (u : Fin 1) (q : Fin 16) (l : Fin 256), j = ix3 u q l := ⟨j 0, j 1, j 2, eq_ix3 j⟩
  have hu : u.val = 0 := by omega
  show k0_pay1 (iblk0 V c 0 t) (iblk0 V c 1 t) (iblk0 V c 2 t) (ix3 u q l)
    = poolTAt (V c main_arg0) (V c main_v0) (V c main_v1) (((cfg0.win 3).blk t).view.emb (ix3 u q l) 0)
        (((cfg0.win 3).blk t).view.emb (ix3 u q l) 1) (((cfg0.win 3).blk t).view.emb (ix3 u q l) 2)
  refine point_val V c t u q l _ _ _ ?_ ?_ (Fin.ext ?_)
  · show win0_3.index t (0 : Fin 3) * 1 + 1 * u.val = win0_3.index t (0 : Fin 3); omega
  · show win0_3.index t (1 : Fin 3) * 16 + 1 * q.val = win0_3.index t (1 : Fin 3) * 16 + q.val; omega
  · show win0_3.index t (2 : Fin 3) * 256 + 1 * l.val = l.val; omega

/-! ## The blocks cover the array -/

/-- An index of the array is in point `t`'s block iff each coordinate is in the block's range on its axis. -/
theorem mem_blk (t : Fin cfg0.N) (i : S8x64x256.Idx) :
    i ∈ ((cfg0.win 3).blk t).view.set ↔ ∀ a : Fin 3, win0_3.index t a * S1x16x256.size a ≤ (i a).val
      ∧ (i a).val < win0_3.index t a * S1x16x256.size a + S1x16x256.size a := by
  show i ∈ ((View.whole main_v4).slice (win0_3.rect t)).set ↔ _
  rw [View.set_slice_whole, Rect.mem_set_unit]
  exact Iff.rfl

/-- Every index (b, p, l) of the array is in the block of the point with batch index `b` and sequence index `p / 16`. -/
theorem cover (i : S8x64x256.Idx) :
    ∃ t : Fin cfg0.N, (cfg0.win 3).flush t = true ∧ i ∈ ((cfg0.win 3).blk t).view.set := by
  have hi0 : (i 0).val < 8 := (i 0).isLt
  have hi1 : (i 1).val < 64 := (i 1).isLt
  have hi2 : (i 2).val < 256 := (i 2).isLt
  obtain ⟨t, ht⟩ := idx_onto ⟨(i 0).val, hi0⟩ ⟨(i 1).val / 16, by omega⟩
  have q0 : win0_3.index t (0 : Fin 3) = (i 0).val := congrFun ht 0
  have q1 : win0_3.index t (1 : Fin 3) = (i 1).val / 16 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 16 ≤ (i 1).val ∧ (i 1).val < win0_3.index t (1 : Fin 3) * 16 + 16; omega
  | ⟨2, _⟩ => show win0_3.index t (2 : Fin 3) * 256 ≤ (i 2).val ∧ (i 2).val < win0_3.index t (2 : Fin 3) * 256 + 256; omega

/-- After the region, output window 3's array is the pooled activations of the arrays the region found. -/
theorem pool_array (c : Dev nD) :
    (dat0 V c).arrAt 3 cfg0.N = poolT (V c main_arg0) (V c main_v0) (V c main_v1) :=
  (dat0 V c).arrAt_eq_of_cover 3 (poolT (V c main_arg0) (V c main_v0) (V c main_v1)) (fun t _ => flushed_eq V c t) cover

end Cert.KernelIdeal.PoolValue

end
-- ==== Proof.OutValue.lean ====
/-
  The second kernel region's output array: whatever contents `V` the region finds, after its 8 grid points the array of
  output window 7 holds `outT` of the seven arrays its input windows read.
-/
import proofs.«139167_j28656021799561_1_alg».proof.Proof.Gen.KernelIdeal.Frame
import proofs.«139167_j28656021799561_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.OutValue

open Cert.KernelIdeal Cert.KernelIdeal.Gen Cert.Pooling

variable (V : (c : Dev nD) → (b : Ref sig .tc) → Buf (Elt Ideal) ((c : Thread nD τ).loc b))

/-! ## The up projection's operand indices -/

/-- The left operand's row is the output's row. -/
theorem lhs_up_0 (i : S64x1024.Idx) (q : dot_S64x256_S256x1024_S64x1024_1_0_0_1_n_n.contr.Idx) :
    (dot_S64x256_S256x1024_S64x1024_1_0_0_1_n_n.lhsIdx i q 0).val = (i 0).val := by
  unfold DotDims.lhsIdx
  rw [dif_neg (show ¬(0 : Fin S64x256.rank) ∈ dot_S64x256_S256x1024_S64x1024_1_0_0_1_n_n.lhsBatch by decide), dif_pos (show (0 : Fin S64x256.rank) ∈ dot_S64x256_S256x1024_S64x1024_1_0_0_1_n_n.lhsNonContracting by decide)]
  rfl
/-- The left operand's column is the contraction coordinate. -/
theorem lhs_up_1 (i : S64x1024.Idx) (q : dot_S64x256_S256x1024_S64x1024_1_0_0_1_n_n.contr.Idx) :
    (dot_S64x256_S256x1024_S64x1024_1_0_0_1_n_n.lhsIdx i q 1).val = (q ⟨0, by decide⟩).val :=
  dot_S64x256_S256x1024_S64x1024_1_0_0_1_n_n.lhsIdx_val_of_single rfl i q
/-- The right operand's row is the contraction coordinate. -/
theorem rhs_up_0 (i : S64x1024.Idx) (q : dot_S64x256_S256x1024_S64x1024_1_0_0_1_n_n.contr.Idx) :
    (dot_S64x256_S256x1024_S64x1024_1_0_0_1_n_n.rhsIdx i q 0).val = (q ⟨0, by decide⟩).val :=
  dot_S64x256_S256x1024_S64x1024_1_0_0_1_n_n.rhsIdx_val_of_single rfl i q
/-- The right operand's column is the output's column. -/
theorem rhs_up_1 (i : S64x1024.Idx) (q : dot_S64x256_S256x1024_S64x1024_1_0_0_1_n_n.contr.Idx) :
    (dot_S64x256_S256x1024_S64x1024_1_0_0_1_n_n.rhsIdx i q 1).val = (i 1).val := by
  unfold DotDims.rhsIdx
  rw [dif_neg (show ¬(1 : Fin S256x1024.rank) ∈ dot_S64x256_S256x1024_S64x1024_1_0_0_1_n_n.rhsBatch by decide), dif_pos (show (1 : Fin S256x1024.rank) ∈ dot_S64x256_S256x1024_S64x1024_1_0_0_1_n_n.rhsNonContracting by decide)]
  rfl

/-! ## The body's arithmetic at one entry -/

/-- A one-row matrix broadcast over 64 rows reads its row. -/
theorem row256_apply (v : Vec Ideal S1x256 .f32) (h1 : S1x256.ShapeCasts S1x256) (h2 : S1x256.Broadcasts S64x256)
    (p : Fin 64) (c : Fin 256) :
    broadcastTo S64x256 (shapeCast S1x256 v h1) h2 (ix2 p c) = v (ix2 (0 : Fin 1) c) :=
  (broadcastTo_1b_ab_apply _ h2 p c).trans (congrFun (shapeCast_self v h1) _)

/-- The same for the bias row of 1024 columns. -/
theorem row1024_apply (v : Vec Ideal S1x1024 .f32) (h1 : S1x1024.ShapeCasts S1x1024) (h2 : S1x1024.Broadcasts S64x1024)
    (p : Fin 64) (d : Fin 1024) :
    broadcastTo S64x1024 (shapeCast S1x1024 v h1) h2 (ix2 p d) = v (ix2 (0 : Fin 1) d) :=
  (broadcastTo_1b_ab_apply _ h2 p d).trans (congrFun (shapeCast_self v h1) _)

/-- The body's result at block index (u, p, d): the normalised row p times column d of the weights, plus the bias. -/
theorem pay_apply (x0 : Vec Ideal S1x64x256 .f32) (x1 x2 x3 x4 : Vec Ideal S1x256 .f32) (x5 : Vec Ideal S256x1024 .f32)
    (x6 : Vec Ideal S1x1024 .f32) (u : Fin 1) (p : Fin 64) (d : Fin 1024) :
    k1_pay1 x0 x1 x2 x3 x4 x5 x6 (ix3 u p d)
      = (∑ c : Fin 256, ((x0 (ix3 (0 : Fin 1) p c) - x1 (ix2 (0 : Fin 1) c)) * Ideal.rsqrt (x2 (ix2 (0 : Fin 1) c) + eps)
            * x3 (ix2 (0 : Fin 1) c) + x4 (ix2 (0 : Fin 1) c)) * x5 (ix2 c d))
        + x6 (ix2 (0 : Fin 1) d) := by
  unfold k1_pay1
  refine (shapeCast_ab_1ab_apply _ _ u p d).trans ?_
  refine (addf_apply _ _ _).trans ?_
  refine congrArg₂ (· + ·) ?_ (row1024_apply x6 _ _ p d)
  refine (Ideal.matmul_constant_zero_apply dot_S64x256_S256x1024_S64x1024_1_0_0_1_n_n none _ _ (ix2 p d)).trans ?_
  refine (Equiv.sum_comp (contrEquiv1 dot_S64x256_S256x1024_S64x1024_1_0_0_1_n_n 256 rfl rfl).symm _).symm.trans ?_
  refine Finset.sum_congr rfl fun k _ => ?_
  have hk := contrEquiv1_symm_val dot_S64x256_S256x1024_S64x1024_1_0_0_1_n_n 256 rfl rfl k
  have el : dot_S64x256_S256x1024_S64x1024_1_0_0_1_n_n.lhsIdx (ix2 p d) ((contrEquiv1 dot_S64x256_S256x1024_S64x1024_1_0_0_1_n_n 256 rfl rfl).symm k) = ix2 p k := funext fun a => Fin.ext (by
    match a with
    | ⟨0, _⟩ => exact lhs_up_0 _ _
    | ⟨1, _⟩ => exact (lhs_up_1 _ _).trans hk)
  have er : dot_S64x256_S256x1024_S64x1024_1_0_0_1_n_n.rhsIdx (ix2 p d) ((contrEquiv1 dot_S64x256_S256x1024_S64x1024_1_0_0_1_n_n 256 rfl rfl).symm k) = ix2 k d := funext fun a => Fin.ext (by
    match a with
    | ⟨0, _⟩ => exact (rhs_up_0 _ _).trans hk
    | ⟨1, _⟩ => exact rhs_up_1 _ _)
  beta_reduce
  rw [el, er]
  refine congrArg₂ (· * ·) ?_ ((truncf_apply (φ := .f32) (ψ := .bf16) _ bitsLt_bf16_f32 _).trans (congrFun (shapeCast_self x5 _) _))
  refine (truncf_apply (φ := .f32) (ψ := .bf16) _ bitsLt_bf16_f32 _).trans ?_
  refine (addf_apply _ _ _).trans ?_
  refine congrArg₂ (· + ·) ?_ (row256_apply x4 _ _ p k)
  refine (mulf_apply _ _ _).trans ?_
  refine congrArg₂ (· * ·) ?_ (row256_apply x3 _ _ p k)
  refine (mulf_apply _ _ _).trans ?_
  refine congrArg₂ (· * ·) ?_ ?_
  · refine (subf_apply _ _ _).trans ?_
    exact congrArg₂ (· - ·) (shapeCast_1ab_ab_apply x0 _ p k) (row256_apply x1 _ _ p k)
  · refine (broadcastTo_1b_ab_apply _ _ p k).trans ?_
    show Ideal.rsqrt (_ + _) = Ideal.rsqrt (_ + _)
    refine congrArg Ideal.rsqrt (congrArg₂ (· + ·) (congrFun (shapeCast_self x2 _) _) rfl)

/-! ## What a grid point writes back -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The windows' index maps, decided over the 8 points: the pooled block moves with the output block along the batch
    axis, and every other block index is zero. -/
theorem idx_facts : ∀ t : Fin cfg1.N,
    win1_0.index t (0 : Fin 3) = win1_7.index t (0 : Fin 3) ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (1 : Fin 3) = 0 ∧ win1_7.index t (2 : Fin 3) = 0 ∧ win1_7.index t (0 : Fin 3) ≤ 7 :=
  (by decide +kernel : ∀ t : Fin grid1.N, _)

/-- Every batch index is some point's block index. -/
theorem idx_onto : ∀ q : Fin 8, ∃ t : Fin cfg1.N, win1_7.index t = ![q.val, 0, 0] :=
  (by decide +kernel : ∀ q : Fin 8, ∃ t : Fin grid1.N, win1_7.index t = ![q.val, 0, 0])

/-- What point t writes back is block t of the result computed from the arrays the region found. -/
theorem flushed_eq (c : Dev nD) (t : Fin cfg1.N) :
    (dat1 V c).flushed 7 t = ((cfg1.win 7).blk t).view.read (Elt Ideal)
      (outT (V c main_v4) (V c main_v15) (V c main_v16) (V c main_v17) (V c main_v18) (V c main_v2) (V c main_v3)) := by
  show (cfg1.win 7).cut (grid1.coords t) ((dat1 V c).after 7 t) = _
  rw [after1_7]
  unfold out1_7
  rw [View.canon_unit_zero zeros3]
  simp only [View.ld_unit_zero (S := S1x64x256) zeros3, View.ld_unit_zero (S := S1x256) zeros2,
    View.ld_unit_zero (S := S256x1024) zeros2, View.ld_unit_zero (S := S1x1024) zeros2]
  funext j
  obtain ⟨u, p, d, rfl⟩ : ∃ (u : Fin 1) (p : Fin 64) (d : Fin 1024), j = (ix3 u p d : S1x64x1024.Idx) :=
    ⟨j 0, j 1, j 2, eq_ix3 (n0 := 1) (n1 := 64) (n2 := 1024) j⟩
  have hx : (win1 7).xinj (grid1.coords t) (ix3 u p d : S1x64x1024.Idx) = (ix3 u p d : S1x64x1024.Idx) :=
    funext fun a => by match a with | ⟨0, _⟩ => rfl | ⟨1, _⟩ => rfl | ⟨2, _⟩ => rfl
  show k1_pay1 _ _ _ _ _ _ _ ((win1 7).xinj (grid1.coords t) (ix3 u p d : S1x64x1024.Idx)) = _
  rw [hx]
  refine (pay_apply _ _ _ _ _ _ _ u p d).trans ?_
  obtain ⟨e00, e01, e02, e10, e11, e20, e21, e30, e31, e40, e41, e50, e51, e60, e61, e71, e72, e7le⟩ := idx_facts t
  have hu : u.val = 0 := by omega
  have hb : win1_7.index t (0 : Fin 3) < 8 := by omega
  have h7 : ((cfg1.win 7).blk t).view.emb (ix3 u p d : S1x64x1024.Idx)
      = (ix3 (⟨win1_7.index t (0 : Fin 3), hb⟩ : Fin 8) p d : S8x64x1024.Idx) := by
    funext a; apply Fin.ext
    match a with
    | ⟨0, _⟩ => show win1_7.index t (0 : Fin 3) * 1 + 1 * u.val = win1_7.index t (0 : Fin 3); omega
    | ⟨1, _⟩ => show win1_7.index t (1 : Fin 3) * 64 + 1 * p.val = p.val; omega
    | ⟨2, _⟩ => show win1_7.index t (2 : Fin 3) * 1024 + 1 * d.val = d.val; omega
  have h0 : ∀ k : Fin 256, ((cfg1.win 0).blk t).view.emb (ix3 (0 : Fin 1) p k : S1x64x256.Idx)
      = (ix3 (⟨win1_7.index t (0 : Fin 3), hb⟩ : Fin 8) p k : S8x64x256.Idx) := fun k => by
    funext a; apply Fin.ext
    match a with
    | ⟨0, _⟩ => show win1_0.index t (0 : Fin 3) * 1 + 1 * 0 = win1_7.index t (0 : Fin 3); omega
    | ⟨1, _⟩ => show win1_0.index t (1 : Fin 3) * 64 + 1 * p.val = p.val; omega
    | ⟨2, _⟩ => show win1_0.index t (2 : Fin 3) * 256 + 1 * k.val = k.val; omega
  have h1 : ∀ k : Fin 256, ((cfg1.win 1).blk t).view.emb (ix2 (0 : Fin 1) k : S1x256.Idx) = (ix2 (0 : Fin 1) k : S1x256.Idx) := fun k => by
    funext a; apply Fin.ext
    match a with
    | ⟨0, _⟩ => show win1_1.index t (0 : Fin 2) * 1 + 1 * 0 = 0; omega
    | ⟨1, _⟩ => show win1_1.index t (1 : Fin 2) * 256 + 1 * k.val = k.val; omega
  have h2 : ∀ k : Fin 256, ((cfg1.win 2).blk t).view.emb (ix2 (0 : Fin 1) k : S1x256.Idx) = (ix2 (0 : Fin 1) k : S1x256.Idx) := fun k => by
    funext a; apply Fin.ext
    match a with
    | ⟨0, _⟩ => show win1_2.index t (0 : Fin 2) * 1 + 1 * 0 = 0; omega
    | ⟨1, _⟩ => show win1_2.index t (1 : Fin 2) * 256 + 1 * k.val = k.val; omega
  have h3 : ∀ k : Fin 256, ((cfg1.win 3).blk t).view.emb (ix2 (0 : Fin 1) k : S1x256.Idx) = (ix2 (0 : Fin 1) k : S1x256.Idx) := fun k => by
    funext a; apply Fin.ext
    match a with
    | ⟨0, _⟩ => show win1_3.index t (0 : Fin 2) * 1 + 1 * 0 = 0; omega
    | ⟨1, _⟩ => show win1_3.index t (1 : Fin 2) * 256 + 1 * k.val = k.val; omega
  have h4 : ∀ k : Fin 256, ((cfg1.win 4).blk t).view.emb (ix2 (0 : Fin 1) k : S1x256.Idx) = (ix2 (0 : Fin 1) k : S1x256.Idx) := fun k => by
    funext a; apply Fin.ext
    match a with
    | ⟨0, _⟩ => show win1_4.index t (0 : Fin 2) * 1 + 1 * 0 = 0; omega
    | ⟨1, _⟩ => show win1_4.index t (1 : Fin 2) * 256 + 1 * k.val = k.val; omega
  have h5 : ∀ k : Fin 256, ((cfg1.win 5).blk t).view.emb (ix2 k d : S256x1024.Idx) = (ix2 k d : S256x1024.Idx) := fun k => by
    funext a; apply Fin.ext
    match a with
    | ⟨0, _⟩ => show win1_5.index t (0 : Fin 2) * 256 + 1 * k.val = k.val; omega
    | ⟨1, _⟩ => show win1_5.index t (1 : Fin 2) * 1024 + 1 * d.val = d.val; omega
  have h6 : ((cfg1.win 6).blk t).view.emb (ix2 (0 : Fin 1) d : S1x1024.Idx) = (ix2 (0 : Fin 1) d : S1x1024.Idx) := by
    funext a; apply Fin.ext
    match a with
    | ⟨0, _⟩ => show win1_6.index t (0 : Fin 2) * 1 + 1 * 0 = 0; omega
    | ⟨1, _⟩ => show win1_6.index t (1 : Fin 2) * 1024 + 1 * d.val = d.val; omega
  have r0 : ∀ k : Fin 256, iblk1 V c 0 t (ix3 (0 : Fin 1) p k : S1x64x256.Idx)
      = V c main_v4 (ix3 (⟨win1_7.index t (0 : Fin 3), hb⟩ : Fin 8) p k : S8x64x256.Idx) := fun k =>
    (show iblk1 V c 0 t (ix3 (0 : Fin 1) p k : S1x64x256.Idx)
        = V c main_v4 (((cfg1.win 0).blk t).view.emb (ix3 (0 : Fin 1) p k : S1x64x256.Idx)) from rfl).trans
      (congrArg (V c main_v4) (h0 k))
  have r1 : ∀ k : Fin 256, iblk1 V c 1 t (ix2 (0 : Fin 1) k : S1x256.Idx) = V c main_v15 (ix2 (0 : Fin 1) k : S1x256.Idx) := fun k =>
    (show iblk1 V c 1 t (ix2 (0 : Fin 1) k : S1x256.Idx)
        = V c main_v15 (((cfg1.win 1).blk t).view.emb (ix2 (0 : Fin 1) k : S1x256.Idx)) from rfl).trans
      (congrArg (V c main_v15) (h1 k))
  have r2 : ∀ k : Fin 256, iblk1 V c 2 t (ix2 (0 : Fin 1) k : S1x256.Idx) = V c main_v16 (ix2 (0 : Fin 1) k : S1x256.Idx) := fun k =>
    (show iblk1 V c 2 t (ix2 (0 : Fin 1) k : S1x256.Idx)
        = V c main_v16 (((cfg1.win 2).blk t).view.emb (ix2 (0 : Fin 1) k : S1x256.Idx)) from rfl).trans
      (congrArg (V c main_v16) (h2 k))
  have r3 : ∀ k : Fin 256, iblk1 V c 3 t (ix2 (0 : Fin 1) k : S1x256.Idx) = V c main_v17 (ix2 (0 : Fin 1) k : S1x256.Idx) := fun k =>
    (show iblk1 V c 3 t (ix2 (0 : Fin 1) k : S1x256.Idx)
        = V c main_v17 (((cfg1.win 3).blk t).view.emb (ix2 (0 : Fin 1) k : S1x256.Idx)) from rfl).trans
      (congrArg (V c main_v17) (h3 k))
  have r4 : ∀ k : Fin 256, iblk1 V c 4 t (ix2 (0 : Fin 1) k : S1x256.Idx) = V c main_v18 (ix2 (0 : Fin 1) k : S1x256.Idx) := fun k =>
    (show iblk1 V c 4 t (ix2 (0 : Fin 1) k : S1x256.Idx)
        = V c main_v18 (((cfg1.win 4).blk t).view.emb (ix2 (0 : Fin 1) k : S1x256.Idx)) from rfl).trans
      (congrArg (V c main_v18) (h4 k))
  have r5 : ∀ k : Fin 256, iblk1 V c 5 t (ix2 k d : S256x1024.Idx) = V c main_v2 (ix2 k d : S256x1024.Idx) := fun k =>
    (show iblk1 V c 5 t (ix2 k d : S256x1024.Idx)
        = V c main_v2 (((cfg1.win 5).blk t).view.emb (ix2 k d : S256x1024.Idx)) from rfl).trans
      (congrArg (V c main_v2) (h5 k))
  have r6 : iblk1 V c 6 t (ix2 (0 : Fin 1) d : S1x1024.Idx) = V c main_v3 (ix2 (0 : Fin 1) d : S1x1024.Idx) :=
    (show iblk1 V c 6 t (ix2 (0 : Fin 1) d : S1x1024.Idx)
        = V c main_v3 (((cfg1.win 6).blk t).view.emb (ix2 (0 : Fin 1) d : S1x1024.Idx)) from rfl).trans
      (congrArg (V c main_v3) h6)
  show _ = outT (V c main_v4) (V c main_v15) (V c main_v16) (V c main_v17) (V c main_v18) (V c main_v2) (V c main_v3)
    (((cfg1.win 7).blk t).view.emb (ix3 u p d : S1x64x1024.Idx))
  rw [h7]
  show _ = outTAt (V c main_v4) (V c main_v15) (V c main_v16) (V c main_v17) (V c main_v18) (V c main_v2) (V c main_v3)
    (⟨win1_7.index t (0 : Fin 3), hb⟩ : Fin 8) p d
  unfold outTAt
  refine congrArg₂ (· + ·) (Finset.sum_congr rfl fun k _ => ?_) r6
  rw [r0 k, r1 k, r2 k, r3 k, r4 k, r5 k]

/-! ## The blocks tile the output array -/

/-- An index of the array is in point t's block iff each coordinate is in the block's range on its axis. -/
theorem mem_blk (t : Fin cfg1.N) (i : S8x64x1024.Idx) :
    i ∈ ((cfg1.win 7).blk t).view.set ↔ ∀ a : Fin 3, win1_7.index t a * S1x64x1024.size a ≤ (i a).val
      ∧ (i a).val < win1_7.index t a * S1x64x1024.size a + S1x64x1024.size a := by
  show i ∈ ((View.whole main_v19).slice (win1_7.rect t)).set ↔ _
  rw [View.set_slice_whole, Rect.mem_set_unit]
  exact Iff.rfl

/-- Every index of the output array lies in the block of the point whose batch index is the index's first coordinate. -/
theorem cover (i : S8x64x1024.Idx) :
    ∃ t : Fin cfg1.N, (cfg1.win 7).flush t = true ∧ i ∈ ((cfg1.win 7).blk t).view.set := by
  have hi0 : (i 0).val < 8 := (i 0).isLt
  have hi1 : (i 1).val < 64 := (i 1).isLt
  have hi2 : (i 2).val < 1024 := (i 2).isLt
  obtain ⟨t, ht⟩ := idx_onto ⟨(i 0).val, hi0⟩
  have q0 : win1_7.index t (0 : Fin 3) = (i 0).val := congrFun ht 0
  have q1 : win1_7.index t (1 : Fin 3) = 0 := congrFun ht 1
  have q2 : win1_7.index t (2 : Fin 3) = 0 := congrFun ht 2
  refine ⟨t, flush1_7 t, ?_⟩
  rw [mem_blk]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 64 ≤ (i 1).val ∧ (i 1).val < win1_7.index t (1 : Fin 3) * 64 + 64; omega
  | ⟨2, _⟩ => show win1_7.index t (2 : Fin 3) * 1024 ≤ (i 2).val ∧ (i 2).val < win1_7.index t (2 : Fin 3) * 1024 + 1024; omega

/-- After the region, output window 7's array is the normalised, up-projected result of the arrays the region found. -/
theorem out_array (c : Dev nD) :
    (dat1 V c).arrAt 7 cfg1.N
      = outT (V c main_v4) (V c main_v15) (V c main_v16) (V c main_v17) (V c main_v18) (V c main_v2) (V c main_v3) :=
  (dat1 V c).arrAt_eq_of_cover 7 _ (fun t _ => flushed_eq V c t) cover

end Cert.KernelIdeal.OutValue

end
-- ==== Proof.HostGlue.lean ====
/-
  The host operations of the kernel's program, read back.

  Before the first region the host transposes W_down and turns b_down into a one-row matrix; between the regions it
  computes, from the pooled activations the first region wrote, the per-channel mean (sum over batch and token, divided
  by 512) and the biased variance (mean of the squared deviations), turns mean, variance, γ and β into one-row
  matrices, and the second region also reads the transposed W_up and b_up as a one-row matrix, both made before the
  first region. `meanOf` and `varOf` name the two statistics as functions of the pooled array; they are never opened:
  the reference computes them by the same operations.
-/
import proofs.«139167_j28656021799561_1_alg».proof.Proof.KernelRun
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem
open Idealize.ShloMosaic.ValueIdx

namespace Cert.KernelIdeal.Glue

open Cert.KernelIdeal Cert.KernelIdeal.Gen Cert.KernelIdeal.GenP

/-- The per-channel mean of an [8, 64, 256] array as the host computes it: the sum over the first two axes, from zero,
    divided by 512. -/
def meanOf {F : FTy → Type} [FloatOps F] (P : FVec F S8x64x256 .f32) : FVec F S256 .f32 :=
  Host.divf (Host.reduceAdd P (constant S_ .f32 0x00000000#32) reducesTo_S8x64x256_S256_d0_1 h_S_)
    (broadcastInDim S256 ![] bcast_S_S256 (constant S_ .f32 0x44000000#32))

/-- The per-channel biased variance as the host computes it: the mean of the squared deviations from `meanOf`. -/
def varOf {F : FTy → Type} [FloatOps F] (P : FVec F S8x64x256 .f32) : FVec F S256 .f32 :=
  Host.divf (Host.reduceAdd
      (mulf (subf P (broadcastInDim S8x64x256 ![0, 1, 2] bcast_S1x1x256_S8x64x256_0_1_2 (broadcastInDim S1x1x256 ![2] bcast_S256_S1x1x256_2 (meanOf P))))
            (subf P (broadcastInDim S8x64x256 ![0, 1, 2] bcast_S1x1x256_S8x64x256_0_1_2 (broadcastInDim S1x1x256 ![2] bcast_S256_S1x1x256_2 (meanOf P)))))
      (constant S_ .f32 0x00000000#32) reducesTo_S8x64x256_S256_d0_1 h_S_)
    (broadcastInDim S256 ![] bcast_S_S256 (constant S_ .f32 0x44000000#32))

/-! ## Two layout operations read at an index -/

/-- A vector of 256 entries as a one-row matrix reads, at (0, c), entry c. -/
theorem row256_apply {α : Type} (x : S256.Idx → α) (c : Fin 256) :
    shapeCast S1x256 x shapeCasts_S256_S1x256 (ix2 (0 : Fin 1) c) = x (ix1 c) :=
  shapeCast_apply x shapeCasts_S256_S1x256 _ _ (by
    rw [Shape.rowMajor_val_one, Shape.rowMajor_val_two]
    show c.val = 0 * 256 + c.val
    omega)

/-- A vector of 1024 entries as a one-row matrix reads, at (0, d), entry d. -/
theorem row1024_apply {α : Type} (x : S1024.Idx → α) (d : Fin 1024) :
    shapeCast S1x1024 x shapeCasts_S1024_S1x1024 (ix2 (0 : Fin 1) d) = x (ix1 d) :=
  shapeCast_apply x shapeCasts_S1024_S1x1024 _ _ (by
    rw [Shape.rowMajor_val_one, Shape.rowMajor_val_two]
    show d.val = 0 * 1024 + d.val
    omega)

/-- The transposed down weights read, at (d, c), W_down at (c, d). -/
theorem wdT_apply {α : Type} (x : S256x1024.Idx → α) (d : Fin 1024) (c : Fin 256) :
    transpose S1024x256 [1, 0] x transposes_S256x1024_S1024x256_1_0 (ix2 d c) = x (ix2 c d) :=
  transpose_ix2_apply x transposes_S256x1024_S1024x256_1_0 d c

/-- The transposed up weights read, at (c, d), W_up at (d, c). -/
theorem wuT_apply {α : Type} (x : S1024x256.Idx → α) (c : Fin 256) (d : Fin 1024) :
    transpose S256x1024 [1, 0] x transposes_S1024x256_S256x1024_1_0 (ix2 c d) = x (ix2 d c) :=
  transpose_ix2_apply x transposes_S1024x256_S256x1024_1_0 c d

/-! ## What each region finds in the arrays its windows read -/

variable {F : FTy → Type} [FloatOps F]
variable (m : (ℓ : Loc nD τ sig) → Buf (Elt F) ℓ) (ρ : Dev nD → PrngReg)

/-- The first region reads the hidden states as launched, -/
theorem V1_arg0 (c : Dev nD) : V1 m ρ c main_arg0 = m ((c : Thread nD τ).loc main_arg0) := by
  show StableHlo.after hostOps0 (W0 m ρ c) (Proc.devRef .tc main_arg0) = _
  after_results

/-- the down weights transposed, -/
theorem V1_v0 (c : Dev nD) :
    V1 m ρ c main_v0 = transpose S1024x256 [1, 0] (m ((c : Thread nD τ).loc main_arg1)) transposes_S256x1024_S1024x256_1_0 := by
  show StableHlo.after hostOps0 (W0 m ρ c) (Proc.devRef .tc main_v0) = _
  after_results

/-- and the down bias as a one-row matrix. -/
theorem V1_v1 (c : Dev nD) :
    V1 m ρ c main_v1 = shapeCast S1x256 (m ((c : Thread nD τ).loc main_arg2)) shapeCasts_S256_S1x256 := by
  show StableHlo.after hostOps0 (W0 m ρ c) (Proc.devRef .tc main_v1) = _
  after_results
  rfl

/-- After the first region its output array holds what the region's write-backs left. -/
theorem V2_v4 (c : Dev nD) : V2 m ρ c main_v4 = (dat0 (V1 m ρ) c).arrAt 3 cfg0.N := W2_arr m ρ c 3

/-- The second region reads the mean of the pooled activations as a one-row matrix, -/
theorem V3_v15 (c : Dev nD) :
    V3 m ρ c main_v15 = shapeCast S1x256 (meanOf (V2 m ρ c main_v4)) shapeCasts_S256_S1x256 := by
  show StableHlo.after hostOps1 (W2 m ρ c) (Proc.devRef .tc main_v15)
    = shapeCast S1x256 (meanOf (W2 m ρ c (Proc.devRef .tc main_v4))) shapeCasts_S256_S1x256
  generalize W2 m ρ c = W
  after_results
  rfl

/-- their variance as a one-row matrix, -/
theorem V3_v16 (c : Dev nD) :
    V3 m ρ c main_v16 = shapeCast S1x256 (varOf (V2 m ρ c main_v4)) shapeCasts_S256_S1x256 := by
  show StableHlo.after hostOps1 (W2 m ρ c) (Proc.devRef .tc main_v16)
    = shapeCast S1x256 (varOf (W2 m ρ c (Proc.devRef .tc main_v4))) shapeCasts_S256_S1x256
  generalize W2 m ρ c = W
  after_results
  rfl

/-- the scale γ as a one-row matrix, -/
theorem V3_v17 (c : Dev nD) :
    V3 m ρ c main_v17 = shapeCast S1x256 (m ((c : Thread nD τ).loc main_arg3)) shapeCasts_S256_S1x256 := by
  have e : W2 m ρ c (Proc.devRef .tc main_arg3) = m ((c : Thread nD τ).loc main_arg3) :=
    (W2_of_ne m ρ c main_arg3 (by decide)).trans (by
      show StableHlo.after hostOps0 (W0 m ρ c) (Proc.devRef .tc main_arg3) = _
      after_results)
  rw [← e]
  show StableHlo.after hostOps1 (W2 m ρ c) (Proc.devRef .tc main_v17)
    = shapeCast S1x256 (W2 m ρ c (Proc.devRef .tc main_arg3)) shapeCasts_S256_S1x256
  generalize W2 m ρ c = W
  after_results
  rfl

/-- the shift β as a one-row matrix, -/
theorem V3_v18 (c : Dev nD) :
    V3 m ρ c main_v18 = shapeCast S1x256 (m ((c : Thread nD τ).loc main_arg4)) shapeCasts_S256_S1x256 := by
  have e : W2 m ρ c (Proc.devRef .tc main_arg4) = m ((c : Thread nD τ).loc main_arg4) :=
    (W2_of_ne m ρ c main_arg4 (by decide)).trans (by
      show StableHlo.after hostOps0 (W0 m ρ c) (Proc.devRef .tc main_arg4) = _
      after_results)
  rw [← e]
  show StableHlo.after hostOps1 (W2 m ρ c) (Proc.devRef .tc main_v18)
    = shapeCast S1x256 (W2 m ρ c (Proc.devRef .tc main_arg4)) shapeCasts_S256_S1x256
  generalize W2 m ρ c = W
  after_results
  rfl

/-- the up weights transposed (made before the first region, untouched since), -/
theorem V3_v2 (c : Dev nD) :
    V3 m ρ c main_v2 = transpose S256x1024 [1, 0] (m ((c : Thread nD τ).loc main_arg5)) transposes_S1024x256_S256x1024_1_0 := by
  have e1 : W3 m ρ c (Proc.devRef .tc main_v2) = W2 m ρ c (Proc.devRef .tc main_v2) := by
    show StableHlo.after hostOps1 (W2 m ρ c) (Proc.devRef .tc main_v2) = _
    generalize W2 m ρ c = W
    after_results
  refine e1.trans ((W2_of_ne m ρ c main_v2 (by decide)).trans ?_)
  show StableHlo.after hostOps0 (W0 m ρ c) (Proc.devRef .tc main_v2) = _
  after_results

/-- and the up bias as a one-row matrix (likewise). -/
theorem V3_v3 (c : Dev nD) :
    V3 m ρ c main_v3 = shapeCast S1x1024 (m ((c : Thread nD τ).loc main_arg6)) shapeCasts_S1024_S1x1024 := by
  have e1 : W3 m ρ c (Proc.devRef .tc main_v3) = W2 m ρ c (Proc.devRef .tc main_v3) := by
    show StableHlo.after hostOps1 (W2 m ρ c) (Proc.devRef .tc main_v3) = _
    generalize W2 m ρ c = W
    after_results
  refine e1.trans ((W2_of_ne m ρ c main_v3 (by decide)).trans ?_)
  show StableHlo.after hostOps0 (W0 m ρ c) (Proc.devRef .tc main_v3) = _
  after_results
  rfl

/-- The second region finds the pooled activations as the first region left them. -/
theorem V3_v4 (c : Dev nD) : V3 m ρ c main_v4 = V2 m ρ c main_v4 :=
  (V3_pool m ρ c).trans (V2_v4 m ρ c).symm

end Cert.KernelIdeal.Glue

end
-- ==== Proof.KernelValue.lean ====
/-
  The kernel program's result as one function of the argument arrays.

  The first region writes `poolT` of the arrays it finds, which are the hidden states, W_down transposed and b_down as a
  one-row matrix: that is `pool` of the arguments. The second region writes `outT` of the arrays it finds: those pooled
  activations, their mean and variance (the host's `meanOf`, `varOf`) and γ, β as one-row matrices, W_up transposed and
  b_up as a one-row matrix: that is `out` of the pooled activations, the two statistics and the arguments.
-/
import proofs.«139167_j28656021799561_1_alg».proof.Proof.PoolValue
import proofs.«139167_j28656021799561_1_alg».proof.Proof.OutValue
import proofs.«139167_j28656021799561_1_alg».proof.Proof.HostGlue

set_option maxRecDepth 16384

noncomputable section

open Idealize.ShloMosaic Idealize.ShloMosaic.TcCoe Idealize.SL.Sem
open Idealize.ShloMosaic.ValueIdx

namespace Cert.KernelIdeal.KernelValue

open Cert.KernelIdeal Cert.KernelIdeal.Gen Cert.KernelIdeal.GenP Cert.KernelIdeal.Glue Cert.Pooling

variable (m : (ℓ : Loc nD τ sig) → Buf (Elt Ideal) ℓ) (ρ : Dev nD → PrngReg)

/-- The pooled activations of the launch's arguments. -/
abbrev pooledOf (c : Dev nD) : S8x64x256.Idx → EReal :=
  pool (m ((c : Thread nD τ).loc main_arg0)) (m ((c : Thread nD τ).loc main_arg1)) (m ((c : Thread nD τ).loc main_arg2))

/-- The program's result as a function of the launch's arguments. -/
abbrev resultOf (c : Dev nD) : S8x64x1024.Idx → EReal :=
  out (pooledOf m c) (meanOf (F := Ideal) (pooledOf m c)) (varOf (F := Ideal) (pooledOf m c))
    (m ((c : Thread nD τ).loc main_arg3)) (m ((c : Thread nD τ).loc main_arg4))
    (m ((c : Thread nD τ).loc main_arg5)) (m ((c : Thread nD τ).loc main_arg6))

/-- After the first region its output array holds the pooled activations of the arguments. -/
theorem pooled (c : Dev nD) : V2 m ρ c main_v4 = pooledOf m c := by
  refine (V2_v4 m ρ c).trans ((PoolValue.pool_array (V1 m ρ) c).trans ?_)
  rw [V1_arg0, V1_v0, V1_v1]
  exact poolT_eq _ _ _ _ _ (fun d c' => wdT_apply _ d c') (fun c' => row256_apply _ c')

/-- After the second region the result array holds `resultOf`. -/
theorem result (c : Dev nD) : V4 m ρ c main_v19 = resultOf m c := by
  refine (V4_result m ρ c).trans ((OutValue.out_array (V3 m ρ) c).trans ?_)
  rw [V3_v4, V3_v15, V3_v16, V3_v17, V3_v18, V3_v2, V3_v3, pooled]
  exact outT_eq _ _ _ _ _ _ _ _ _ _ _ _ _ (fun c' => row256_apply _ c') (fun c' => row256_apply _ c')
    (fun c' => row256_apply _ c') (fun c' => row256_apply _ c') (fun c' d => wuT_apply _ c' d) (fun d => row1024_apply _ d)

/-- The run: the result array at `resultOf`, the arguments unchanged. -/
theorem run : θ_run defs (onTc (τ := τ) (main (F := Ideal))) ⟨m, fun _ => 0, ρ⟩ (fun r => ∀ c : Dev nD,
      r.2.mem ((c.tc : Thread nD τ).loc main_v19) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (run_named m ρ)

end Cert.KernelIdeal.KernelValue

end
-- ==== Proof.RefRun.lean ====
/-
  The reference program's run, read back over eight consecutive stretches of its host operations.

  From ANY buffer contents `W`, each stretch leaves in the buffer it ends with one small function of what the buffers it
  reads hold: the down projection plus bias; the maximum over each window of 64 rows; the clamp at zero; the
  per-channel mean and variance; the deviations from the mean; the broadcast reciprocal standard deviation; the scale
  and shift; the up projection plus bias. No stretch writes a buffer an earlier one wrote or an argument, so the eight
  compose to the stage `val_main_v35` of the arguments, and the program's run ends with the result buffer at that stage
  and the arguments unchanged.
-/
import proofs.«139167_j28656021799561_1_alg».proof.Proof.RefReadP
import Idealize.ShloMosaic.Lib.StableHlo.Run
import Idealize.ShloMosaic.Lib.Pipeline.Frame

set_option maxRecDepth 16384

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The second and third stretches as functions of what they read -/

/-- The per-channel mean of an [8, 64, 256] array: its sum over batch and token, from zero, divided by 512. -/
def meanR (P : (⟨S8x64x256, .f32⟩ : BufTy).Contents (Elt F)) : (⟨S256, .f32⟩ : BufTy).Contents (Elt F) :=
  Host.divf (Host.reduceAdd P (val_main_cst_0 (F := F)) reducesTo_S8x64x256_S256_d0_1 h_S_) (val_main_v8 (F := F))

/-- The per-channel biased variance: the mean of the squared deviations from `meanR`. -/
def varR (P : (⟨S8x64x256, .f32⟩ : BufTy).Contents (Elt F)) : (⟨S256, .f32⟩ : BufTy).Contents (Elt F) :=
  Host.divf (Host.reduceAdd
      (mulf (subf P (broadcastInDim S8x64x256 ![0, 1, 2] bcast_S1x1x256_S8x64x256_0_1_2 (broadcastInDim S1x1x256 ![2] bcast_S256_S1x1x256_2 (meanR P))))
            (subf P (broadcastInDim S8x64x256 ![0, 1, 2] bcast_S1x1x256_S8x64x256_0_1_2 (broadcastInDim S1x1x256 ![2] bcast_S256_S1x1x256_2 (meanR P)))))
      (val_main_cst_2 (F := F)) reducesTo_S8x64x256_S256_d0_1 h_S_) (val_main_v15 (F := F))

/-- The normalisation and the up projection, of the pooled activations, the two statistics, γ, β, the up weights and bias. -/
def finalR (P : (⟨S8x64x256, .f32⟩ : BufTy).Contents (Elt F)) (M V g b : (⟨S256, .f32⟩ : BufTy).Contents (Elt F))
    (wu : (⟨S1024x256, .f32⟩ : BufTy).Contents (Elt F)) (bu : (⟨S1024, .f32⟩ : BufTy).Contents (Elt F)) :
    (⟨S8x64x1024, .f32⟩ : BufTy).Contents (Elt F) :=
  addf (Host.dotGeneral dot_S8x64x256_S1024x256_S8x64x1024_2_1_01_0_n_n none
      (addf (mulf (mulf
          (subf P (broadcastInDim S8x64x256 ![0, 1, 2] bcast_S1x1x256_S8x64x256_0_1_2 (broadcastInDim S1x1x256 ![2] bcast_S256_S1x1x256_2 M)))
          (broadcastInDim S8x64x256 ![0, 1, 2] bcast_S1x1x256_S8x64x256_0_1_2 (broadcastInDim S1x1x256 ![2] bcast_S256_S1x1x256_2
            (Host.rsqrt (addf V (broadcastInDim S256 ![] bcast_S_S256 (constant S_ .f32 0x3727C5AC#32)))))))
          (broadcastInDim S8x64x256 ![0, 1, 2] bcast_S1x1x256_S8x64x256_0_1_2 (broadcastInDim S1x1x256 ![2] bcast_S256_S1x1x256_2 g)))
        (broadcastInDim S8x64x256 ![0, 1, 2] bcast_S1x1x256_S8x64x256_0_1_2 (broadcastInDim S1x1x256 ![2] bcast_S256_S1x1x256_2 b)))
      wu)
    (broadcastInDim S8x64x1024 ![0, 1, 2] bcast_S1x1x1024_S8x64x1024_0_1_2 (broadcastInDim S1x1x1024 ![2] bcast_S1024_S1x1x1024_2 bu))

/-- The mean stage is `meanR` of the pooled stage. -/
theorem val_v9_eq (x0 : (⟨S8x4096x1024, .f32⟩ : BufTy).Contents (Elt F)) (x1 : (⟨S256x1024, .f32⟩ : BufTy).Contents (Elt F))
    (x2 : (⟨S256, .f32⟩ : BufTy).Contents (Elt F)) :
    val_main_v9 (F := F) x0 x1 x2 = meanR (val_main_v6 (F := F) x0 x1 x2) := rfl

/-- The variance stage is `varR` of the pooled stage. -/
theorem val_v16_eq (x0 : (⟨S8x4096x1024, .f32⟩ : BufTy).Contents (Elt F)) (x1 : (⟨S256x1024, .f32⟩ : BufTy).Contents (Elt F))
    (x2 : (⟨S256, .f32⟩ : BufTy).Contents (Elt F)) :
    val_main_v16 (F := F) x0 x1 x2 = varR (val_main_v6 (F := F) x0 x1 x2) := rfl

/-- The result stage is `finalR` of the pooled, mean and variance stages and the last four arguments. -/
theorem val_v35_eq (x0 : (⟨S8x4096x1024, .f32⟩ : BufTy).Contents (Elt F)) (x1 : (⟨S256x1024, .f32⟩ : BufTy).Contents (Elt F))
    (x2 x3 x4 : (⟨S256, .f32⟩ : BufTy).Contents (Elt F)) (x5 : (⟨S1024x256, .f32⟩ : BufTy).Contents (Elt F))
    (x6 : (⟨S1024, .f32⟩ : BufTy).Contents (Elt F)) :
    val_main_v35 (F := F) x0 x1 x2 x3 x4 x5 x6
      = finalR (val_main_v6 (F := F) x0 x1 x2) (val_main_v9 (F := F) x0 x1 x2) (val_main_v16 (F := F) x0 x1 x2) x3 x4 x5 x6 := rfl

/-! ## The stretches as functions of what they read -/

/-- The maximum over each window of 64 rows, from -∞. -/
def s5 (X : (⟨S8x4096x256, .f32⟩ : BufTy).Contents (Elt F)) : (⟨S8x64x256, .f32⟩ : BufTy).Contents (Elt F) :=
  Host.reduce FloatOps.maximumf (shapeCast S8x64x64x256 X shapeCasts_S8x4096x256_S8x64x64x256) (val_main_cst (F := F))
    reducesTo_S8x64x64x256_S8x64x256_d2 h_S_

/-- The clamp at zero. -/
def s6 (Y : (⟨S8x64x256, .f32⟩ : BufTy).Contents (Elt F)) : (⟨S8x64x256, .f32⟩ : BufTy).Contents (Elt F) := maximumf Y (val_main_call0_v0 (F := F))

/-- The deviations from the per-channel mean. -/
def s19 (P : (⟨S8x64x256, .f32⟩ : BufTy).Contents (Elt F)) (M : (⟨S256, .f32⟩ : BufTy).Contents (Elt F)) : (⟨S8x64x256, .f32⟩ : BufTy).Contents (Elt F) :=
  subf P (broadcastInDim S8x64x256 ![0, 1, 2] bcast_S1x1x256_S8x64x256_0_1_2 (broadcastInDim S1x1x256 ![2] bcast_S256_S1x1x256_2 M))

/-- The reciprocal square root of the variance plus ε, broadcast over batch and token. -/
def s24 (V : (⟨S256, .f32⟩ : BufTy).Contents (Elt F)) : (⟨S8x64x256, .f32⟩ : BufTy).Contents (Elt F) :=
  broadcastInDim S8x64x256 ![0, 1, 2] bcast_S1x1x256_S8x64x256_0_1_2 (broadcastInDim S1x1x256 ![2] bcast_S256_S1x1x256_2
    (Host.rsqrt (addf V (broadcastInDim S256 ![] bcast_S_S256 (constant S_ .f32 0x3727C5AC#32)))))

/-- The scale by γ and the shift by β. -/
def s31 (D R : (⟨S8x64x256, .f32⟩ : BufTy).Contents (Elt F)) (g b : (⟨S256, .f32⟩ : BufTy).Contents (Elt F)) : (⟨S8x64x256, .f32⟩ : BufTy).Contents (Elt F) :=
  addf (mulf (mulf D R)
      (broadcastInDim S8x64x256 ![0, 1, 2] bcast_S1x1x256_S8x64x256_0_1_2 (broadcastInDim S1x1x256 ![2] bcast_S256_S1x1x256_2 g)))
    (broadcastInDim S8x64x256 ![0, 1, 2] bcast_S1x1x256_S8x64x256_0_1_2 (broadcastInDim S1x1x256 ![2] bcast_S256_S1x1x256_2 b))

/-- The up projection plus its bias. -/
def s35 (H : (⟨S8x64x256, .f32⟩ : BufTy).Contents (Elt F)) (wu : (⟨S1024x256, .f32⟩ : BufTy).Contents (Elt F)) (bu : (⟨S1024, .f32⟩ : BufTy).Contents (Elt F)) :
    (⟨S8x64x1024, .f32⟩ : BufTy).Contents (Elt F) :=
  addf (Host.dotGeneral dot_S8x64x256_S1024x256_S8x64x1024_2_1_01_0_n_n none H wu)
    (broadcastInDim S8x64x1024 ![0, 1, 2] bcast_S1x1x1024_S8x64x1024_0_1_2 (broadcastInDim S1x1x1024 ![2] bcast_S1024_S1x1x1024_2 bu))

theorem val_v5_eq (x0 : (⟨S8x4096x1024, .f32⟩ : BufTy).Contents (Elt F)) (x1 : (⟨S256x1024, .f32⟩ : BufTy).Contents (Elt F))
    (x2 : (⟨S256, .f32⟩ : BufTy).Contents (Elt F)) : val_main_v5 (F := F) x0 x1 x2 = s5 (val_main_v3 (F := F) x0 x1 x2) := rfl
theorem val_v6_eq (x0 : (⟨S8x4096x1024, .f32⟩ : BufTy).Contents (Elt F)) (x1 : (⟨S256x1024, .f32⟩ : BufTy).Contents (Elt F))
    (x2 : (⟨S256, .f32⟩ : BufTy).Contents (Elt F)) : val_main_v6 (F := F) x0 x1 x2 = s6 (val_main_v5 (F := F) x0 x1 x2) := rfl
theorem finalR_eq (P : (⟨S8x64x256, .f32⟩ : BufTy).Contents (Elt F)) (M V g b : (⟨S256, .f32⟩ : BufTy).Contents (Elt F)) (wu : (⟨S1024x256, .f32⟩ : BufTy).Contents (Elt F))
    (bu : (⟨S1024, .f32⟩ : BufTy).Contents (Elt F)) :
    finalR (F := F) P M V g b wu bu = s35 (s31 (s19 P M) (s24 V) g b) wu bu := rfl

/-! ## Each stretch from any contents -/

variable (W : Valuation τ sig (Elt F))

theorem k1_v3 : after ops1 W (Proc.devRef .tc main_v3) = val_main_v3 (F := F) (W (Proc.devRef .tc main_arg0)) (W (Proc.devRef .tc main_arg1)) (W (Proc.devRef .tc main_arg2)) := by
  after_results
  rfl
theorem k1_arg3 : after ops1 W (Proc.devRef .tc main_arg3) = W (Proc.devRef .tc main_arg3) := by after_results
theorem k1_arg4 : after ops1 W (Proc.devRef .tc main_arg4) = W (Proc.devRef .tc main_arg4) := by after_results
theorem k1_arg5 : after ops1 W (Proc.devRef .tc main_arg5) = W (Proc.devRef .tc main_arg5) := by after_results
theorem k1_arg6 : after ops1 W (Proc.devRef .tc main_arg6) = W (Proc.devRef .tc main_arg6) := by after_results
theorem k2_v5 : after ops2 W (Proc.devRef .tc main_v5) = s5 (F := F) (W (Proc.devRef .tc main_v3)) := by
  after_results
  rfl
theorem k2_arg3 : after ops2 W (Proc.devRef .tc main_arg3) = W (Proc.devRef .tc main_arg3) := by after_results
theorem k2_arg4 : after ops2 W (Proc.devRef .tc main_arg4) = W (Proc.devRef .tc main_arg4) := by after_results
theorem k2_arg5 : after ops2 W (Proc.devRef .tc main_arg5) = W (Proc.devRef .tc main_arg5) := by after_results
theorem k2_arg6 : after ops2 W (Proc.devRef .tc main_arg6) = W (Proc.devRef .tc main_arg6) := by after_results
theorem k3_v6 : after ops3 W (Proc.devRef .tc main_v6) = s6 (F := F) (W (Proc.devRef .tc main_v5)) := by
  after_results
  simp only [TRef.ofBuf, TRef.toBuf, cast_eq]
  rfl
theorem k3_arg3 : after ops3 W (Proc.devRef .tc main_arg3) = W (Proc.devRef .tc main_arg3) := by after_results
theorem k3_arg4 : after ops3 W (Proc.devRef .tc main_arg4) = W (Proc.devRef .tc main_arg4) := by after_results
theorem k3_arg5 : after ops3 W (Proc.devRef .tc main_arg5) = W (Proc.devRef .tc main_arg5) := by after_results
theorem k3_arg6 : after ops3 W (Proc.devRef .tc main_arg6) = W (Proc.devRef .tc main_arg6) := by after_results
theorem k4_v9 : after ops4 W (Proc.devRef .tc main_v9) = meanR (F := F) (W (Proc.devRef .tc main_v6)) := by
  after_results
  rfl
theorem k4_v16 : after ops4 W (Proc.devRef .tc main_v16) = varR (F := F) (W (Proc.devRef .tc main_v6)) := by
  after_results
  rfl
theorem k4_v6 : after ops4 W (Proc.devRef .tc main_v6) = W (Proc.devRef .tc main_v6) := by after_results
theorem k4_arg3 : after ops4 W (Proc.devRef .tc main_arg3) = W (Proc.devRef .tc main_arg3) := by after_results
theorem k4_arg4 : after ops4 W (Proc.devRef .tc main_arg4) = W (Proc.devRef .tc main_arg4) := by after_results
theorem k4_arg5 : after ops4 W (Proc.devRef .tc main_arg5) = W (Proc.devRef .tc main_arg5) := by after_results
theorem k4_arg6 : after ops4 W (Proc.devRef .tc main_arg6) = W (Proc.devRef .tc main_arg6) := by after_results
theorem k5_v19 : after ops5 W (Proc.devRef .tc main_v19) = s19 (F := F) (W (Proc.devRef .tc main_v6)) (W (Proc.devRef .tc main_v9)) := by
  after_results
  rfl
theorem k5_v16 : after ops5 W (Proc.devRef .tc main_v16) = W (Proc.devRef .tc main_v16) := by after_results
theorem k5_arg3 : after ops5 W (Proc.devRef .tc main_arg3) = W (Proc.devRef .tc main_arg3) := by after_results
theorem k5_arg4 : after ops5 W (Proc.devRef .tc main_arg4) = W (Proc.devRef .tc main_arg4) := by after_results
theorem k5_arg5 : after ops5 W (Proc.devRef .tc main_arg5) = W (Proc.devRef .tc main_arg5) := by after_results
theorem k5_arg6 : after ops5 W (Proc.devRef .tc main_arg6) = W (Proc.devRef .tc main_arg6) := by after_results
theorem k6_v24 : after ops6 W (Proc.devRef .tc main_v24) = s24 (F := F) (W (Proc.devRef .tc main_v16)) := by
  after_results
  rfl
theorem k6_v19 : after ops6 W (Proc.devRef .tc main_v19) = W (Proc.devRef .tc main_v19) := by after_results
theorem k6_arg3 : after ops6 W (Proc.devRef .tc main_arg3) = W (Proc.devRef .tc main_arg3) := by after_results
theorem k6_arg4 : after ops6 W (Proc.devRef .tc main_arg4) = W (Proc.devRef .tc main_arg4) := by after_results
theorem k6_arg5 : after ops6 W (Proc.devRef .tc main_arg5) = W (Proc.devRef .tc main_arg5) := by after_results
theorem k6_arg6 : after ops6 W (Proc.devRef .tc main_arg6) = W (Proc.devRef .tc main_arg6) := by after_results
theorem k7_v31 : after ops7 W (Proc.devRef .tc main_v31) = s31 (F := F) (W (Proc.devRef .tc main_v19)) (W (Proc.devRef .tc main_v24)) (W (Proc.devRef .tc main_arg3)) (W (Proc.devRef .tc main_arg4)) := by
  after_results
  rfl
theorem k7_arg5 : after ops7 W (Proc.devRef .tc main_arg5) = W (Proc.devRef .tc main_arg5) := by after_results
theorem k7_arg6 : after ops7 W (Proc.devRef .tc main_arg6) = W (Proc.devRef .tc main_arg6) := by after_results
theorem k8_v35 : after ops8 W (Proc.devRef .tc main_v35) = s35 (F := F) (W (Proc.devRef .tc main_v31)) (W (Proc.devRef .tc main_arg5)) (W (Proc.devRef .tc main_arg6)) := by
  after_results
  rfl

/-! ## The eight composed, and the run -/

/-- After all 44 operations, from any contents, the result buffer holds the result stage of the arguments' contents. -/
theorem after_ops : after ops W (Proc.devRef .tc main_v35)
    = val_main_v35 (F := F) (W (Proc.devRef .tc main_arg0)) (W (Proc.devRef .tc main_arg1)) (W (Proc.devRef .tc main_arg2))
        (W (Proc.devRef .tc main_arg3)) (W (Proc.devRef .tc main_arg4)) (W (Proc.devRef .tc main_arg5)) (W (Proc.devRef .tc main_arg6)) := by
  rw [ops_split]
  simp only [StableHlo.after_append]
  rw [k8_v35, k7_v31, k7_arg5, k7_arg6,
    k6_v24, k6_v19, k6_arg3, k6_arg4, k6_arg5, k6_arg6,
    k5_v19, k5_v16, k5_arg3, k5_arg4, k5_arg5, k5_arg6,
    k4_v9, k4_v16, k4_v6, k4_arg3, k4_arg4, k4_arg5, k4_arg6,
    k3_v6, k3_arg3, k3_arg4, k3_arg5, k3_arg6,
    k2_v5, k2_arg3, k2_arg4, k2_arg5, k2_arg6,
    k1_v3, k1_arg3, k1_arg4, k1_arg5, k1_arg6,
    val_v35_eq, finalR_eq, val_v9_eq, val_v16_eq, val_v6_eq, val_v5_eq]

set_option maxRecDepth 8192 in
set_option maxHeartbeats 2000000 in
/-- On every device, from any memory with zero counters: every weakly fair execution of @main terminates with the
    result buffer at the result stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35)
        = val_main_v35 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v35).trans (after_ops (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference program's stages, read at an index, are the specification: its pooled activations (the stage after the
  clamp at zero) are `pool` of the hidden states, the down weights and the down bias; and its result is `out` of that
  stage, of the two statistics' stages (never opened), of γ, β, the up weights and the up bias.
-/
import proofs.«139167_j28656021799561_1_alg».proof.Proof.RefReadP
import proofs.«139167_j28656021799561_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

set_option maxRecDepth 16384

noncomputable section

open Idealize.ShloMosaic Idealize.ShloMosaic.TcCoe Idealize.SL.Sem
open Idealize.ShloMosaic.ValueIdx

namespace Cert.ReferenceIdeal.RefValue

open Cert.ReferenceIdeal Cert.ReferenceIdeal.ReadP Cert.Pooling

/-! ## Index equations: each composed index function, at an index given by its coordinates, is an index by coordinates -/

/-- The reshape's source index: row `w` of window `p` in batch `b` is row `64 p + w` of the sequence. -/
theorem idx_v4_eq (b : Fin 8) (p w : Fin 64) (c : Fin 256) :
    idx_main_v4 (ix4 b p w c) = ix3 b (winRow p w) c := by
  have hb := b.isLt; have hp := p.isLt; have hw := w.isLt; have hc := c.isLt
  funext a
  apply Fin.ext
  match a with
  | ⟨0, _⟩ => show (((b.val * 64 + p.val) * 64 + w.val) * 256 + c.val) / 1048576 = b.val; omega
  | ⟨1, _⟩ => show (((b.val * 64 + p.val) * 64 + w.val) * 256 + c.val) / 256 % 4096 = p.val * 64 + w.val; omega
  | ⟨2, _⟩ => show (((b.val * 64 + p.val) * 64 + w.val) * 256 + c.val) % 256 = c.val; omega

/-- Inserting the window coordinate `w` on axis 2 of the index (b, p, c) gives (b, p, w, c). -/
theorem lift_eq (h : Shape.Reduces S8x64x64x256 [2] S8x64x256) (b : Fin 8) (p : Fin 64) (c : Fin 256) (w : Fin 64) :
    h.lift (ix3 b p c) w = ix4 b p w c := by
  funext a
  apply Fin.ext
  match a with
  | ⟨0, _⟩ => rfl
  | ⟨1, _⟩ => rfl
  | ⟨2, _⟩ => rfl
  | ⟨3, _⟩ => rfl

/-- The down projection reads the hidden states at (b, s, k) … -/
theorem lidx_v0_eq (b : Fin 8) (s : Fin 4096) (c : Fin 256) (k : Fin 1024) :
    lidx_main_v0 (ix3 b s c) k = ix3 b s k :=
  funext fun a => match a with | ⟨0, _⟩ => rfl | ⟨1, _⟩ => rfl | ⟨2, _⟩ => rfl

/-- … and the down weights at (c, k). -/
theorem ridx_v0_eq (b : Fin 8) (s : Fin 4096) (c : Fin 256) (k : Fin 1024) :
    ridx_main_v0 (ix3 b s c) k = ix2 c k :=
  funext fun a => match a with | ⟨0, _⟩ => rfl | ⟨1, _⟩ => rfl

/-- The twice-broadcast down bias is read at `c`. -/
theorem idx_v1_v2_eq (b : Fin 8) (s : Fin 4096) (c : Fin 256) :
    idx_main_v1 (idx_main_v2 (ix3 b s c)) = ix1 c :=
  funext fun a => match a with | ⟨0, _⟩ => rfl

/-- The up projection reads the normalised activations at (b, p, k) … -/
theorem lidx_v32_eq (b : Fin 8) (p : Fin 64) (d : Fin 1024) (k : Fin 256) :
    lidx_main_v32 (ix3 b p d) k = ix3 b p k :=
  funext fun a => match a with | ⟨0, _⟩ => rfl | ⟨1, _⟩ => rfl | ⟨2, _⟩ => rfl

/-- … and the up weights at (d, k). -/
theorem ridx_v32_eq (b : Fin 8) (p : Fin 64) (d : Fin 1024) (k : Fin 256) :
    ridx_main_v32 (ix3 b p d) k = ix2 d k :=
  funext fun a => match a with | ⟨0, _⟩ => rfl | ⟨1, _⟩ => rfl

/-- The twice-broadcast up bias is read at `d`. -/
theorem idx_v33_v34_eq (b : Fin 8) (p : Fin 64) (d : Fin 1024) :
    idx_main_v33 (idx_main_v34 (ix3 b p d)) = ix1 d :=
  funext fun a => match a with | ⟨0, _⟩ => rfl

/-- The twice-broadcast mean is read at `c`. -/
theorem idx_v17_v18_eq (b : Fin 8) (p : Fin 64) (c : Fin 256) :
    idx_main_v17 (idx_main_v18 (ix3 b p c)) = ix1 c :=
  funext fun a => match a with | ⟨0, _⟩ => rfl

/-- The twice-broadcast reciprocal square root is read at `c`. -/
theorem idx_v23_v24_eq (b : Fin 8) (p : Fin 64) (c : Fin 256) :
    idx_main_v23 (idx_main_v24 (ix3 b p c)) = ix1 c :=
  funext fun a => match a with | ⟨0, _⟩ => rfl

/-- The twice-broadcast scale γ is read at `c`. -/
theorem idx_v26_v27_eq (b : Fin 8) (p : Fin 64) (c : Fin 256) :
    idx_main_v26 (idx_main_v27 (ix3 b p c)) = ix1 c :=
  funext fun a => match a with | ⟨0, _⟩ => rfl

/-- The twice-broadcast shift β is read at `c`. -/
theorem idx_v29_v30_eq (b : Fin 8) (p : Fin 64) (c : Fin 256) :
    idx_main_v29 (idx_main_v30 (ix3 b p c)) = ix1 c :=
  funext fun a => match a with | ⟨0, _⟩ => rfl

/-! ## The stages at an index -/

/-- The normalised activations' stage at (b, p, c) is `normed` of the pooled stage and the two statistics' stages:
    (P[b,p,c] - mean[c]) · rsqrt (var[c] + ε) · γ[c] + β[c]. -/
theorem v31_at (x0 : (⟨S8x4096x1024, .f32⟩ : BufTy).Contents (Elt Ideal)) (x1 : (⟨S256x1024, .f32⟩ : BufTy).Contents (Elt Ideal))
    (x2 x3 x4 : (⟨S256, .f32⟩ : BufTy).Contents (Elt Ideal)) (b : Fin 8) (p : Fin 64) (c : Fin 256) :
    val_main_v31 (F := Ideal) x0 x1 x2 x3 x4 (ix3 b p c)
      = normed (val_main_v6 (F := Ideal) x0 x1 x2) (val_main_v9 (F := Ideal) x0 x1 x2) (val_main_v16 (F := Ideal) x0 x1 x2) x3 x4 b p c := by
  rw [val_main_v31_apply, val_main_v28_apply, val_main_v25_apply, val_main_v19_apply, val_main_v18_apply, val_main_v17_apply,
    val_main_v24_apply, val_main_v23_apply, val_main_v22_apply, val_main_v21_apply, val_main_v20_apply, val_main_cst_4_apply,
    val_main_v27_apply, val_main_v26_apply, val_main_v30_apply, val_main_v29_apply,
    idx_v17_v18_eq, idx_v23_v24_eq, idx_v26_v27_eq, idx_v29_v30_eq]
  unfold normed
  rfl

/-- The reference's pooled, clamped activations are `pool`. -/
theorem ref_pool (x0 : (⟨S8x4096x1024, .f32⟩ : BufTy).Contents (Elt Ideal)) (x1 : (⟨S256x1024, .f32⟩ : BufTy).Contents (Elt Ideal))
    (x2 : (⟨S256, .f32⟩ : BufTy).Contents (Elt Ideal)) :
    val_main_v6 (F := Ideal) x0 x1 x2 = pool x0 x1 x2 := by
  funext i
  obtain ⟨b, p, c, rfl⟩ : ∃ (b : Fin 8) (p : Fin 64) (c : Fin 256), i = ix3 b p c := ⟨i 0, i 1, i 2, eq_ix3 i⟩
  show _ = poolAt x0 x1 x2 b p c
  have hR : Shape.Reduces S8x64x64x256 [2] S8x64x256 := by decide
  -- the clamp at zero of the maximum over the window axis, a fold of the maximum from -∞ over the 64 window rows
  rw [val_main_v6_apply, val_main_call0_v0_apply, val_main_call0_cst_apply]
  unfold val_main_v5
  rw [Host.reduce_eq_fold_single FloatOps.maximumf _ _ _ hR]
  unfold poolAt
  -- under the fold: the reshaped, biased down projection at (b, p, w, c) is `proj` at row 64 p + w
  have hf : ∀ w : Fin 64, (val_main_v4 (F := Ideal) x0 x1 x2 ∘ hR.lift (ix3 b p c)) w = proj x0 x1 x2 b (winRow p w) c := by
    intro w
    show val_main_v4 (F := Ideal) x0 x1 x2 (hR.lift (ix3 b p c) w) = _
    rw [lift_eq, val_main_v4_apply, idx_v4_eq, val_main_v3_apply, val_main_v0_apply, val_main_v2_apply, val_main_v1_apply,
      idx_v1_v2_eq]
    unfold proj
    simp only [lidx_v0_eq, ridx_v0_eq]
    rfl
  show max ((Finset.univ : Finset (Fin 64)).fold max negInf (val_main_v4 (F := Ideal) x0 x1 x2 ∘ hR.lift (ix3 b p c))) zero32 = _
  congr 1
  exact Finset.fold_congr (fun w _ => hf w)

/-- The reference's result is `out` of its pooled activations, its mean and variance stages, and the remaining arguments. -/
theorem ref_out (x0 : (⟨S8x4096x1024, .f32⟩ : BufTy).Contents (Elt Ideal)) (x1 : (⟨S256x1024, .f32⟩ : BufTy).Contents (Elt Ideal))
    (x2 x3 x4 : (⟨S256, .f32⟩ : BufTy).Contents (Elt Ideal)) (x5 : (⟨S1024x256, .f32⟩ : BufTy).Contents (Elt Ideal))
    (x6 : (⟨S1024, .f32⟩ : BufTy).Contents (Elt Ideal)) :
    val_main_v35 (F := Ideal) x0 x1 x2 x3 x4 x5 x6
      = out (val_main_v6 (F := Ideal) x0 x1 x2) (val_main_v9 (F := Ideal) x0 x1 x2) (val_main_v16 (F := Ideal) x0 x1 x2) x3 x4 x5 x6 := by
  funext i
  obtain ⟨b, p, d, rfl⟩ : ∃ (b : Fin 8) (p : Fin 64) (d : Fin 1024), i = ix3 b p d := ⟨i 0, i 1, i 2, eq_ix3 i⟩
  show _ = outAt (val_main_v6 (F := Ideal) x0 x1 x2) (val_main_v9 (F := Ideal) x0 x1 x2) (val_main_v16 (F := Ideal) x0 x1 x2) x3 x4 x5 x6 b p d
  -- the sum over c of the normalised activations at (b, p, c) times the up weights at (d, c), plus the up bias at d
  rw [val_main_v35_apply, val_main_v32_apply, val_main_v34_apply, val_main_v33_apply, idx_v33_v34_eq]
  unfold outAt
  simp only [lidx_v32_eq, ridx_v32_eq, v31_at]
  rfl

end Cert.ReferenceIdeal.RefValue

end
-- ==== Proof.lean ====
/-
  The kernel (a down projection fused with a windowed maximum and a clamp at zero, the batch statistics on the host,
  then the normalisation fused with an up projection) against its jnp reference, over the extended reals.

  Both programs compute, entry by entry,
      pool[b,p,c] = max (max_{w<64} (∑_d h[b,64p+w,d]·W_down[c,d] + b_down[c])) 0,
      out[b,p,d]  = ∑_c ((pool[b,p,c] - mean[c]) · rsqrt (var[c] + ε) · γ[c] + β[c]) · W_up[d,c] + b_up[d],
  with mean and var obtained from `pool` by the same host operations in both. The kernel reaches them through two
  grid-tiled regions (Proof/PoolValue.lean, Proof/OutValue.lean) and the host operations around them
  (Proof/HostGlue.lean, Proof/KernelValue.lean); the reference through its 44 host operations (Proof/RefRun.lean,
  Proof/RefValue.lean). The only laws used are that a matrix product is a sum over the contraction index, that a
  windowed maximum is a fold of `max`, and that tiling and transposing re-index without changing a value: no
  distributivity or cancellation, so the inputs' finiteness is never used. The idealization rewrote nothing, so
  `preserves` is trivial.
-/
import proofs.«139167_j28656021799561_1_alg».proof.Defs
import proofs.«139167_j28656021799561_1_alg».proof.Proof.Gen.Kernel
import proofs.«139167_j28656021799561_1_alg».proof.Proof.Gen.Kernel.Frame
import proofs.«139167_j28656021799561_1_alg».proof.Proof.Gen.KernelIdeal
import proofs.«139167_j28656021799561_1_alg».proof.Proof.Gen.KernelIdeal.Frame
import proofs.«139167_j28656021799561_1_alg».proof.Proof.Gen.ReferenceIdeal
import proofs.«139167_j28656021799561_1_alg».proof.Proof.Gen.Pre_finite_inputs
import proofs.«139167_j28656021799561_1_alg».proof.Proof.KernelValue
import proofs.«139167_j28656021799561_1_alg».proof.Proof.RefRun
import proofs.«139167_j28656021799561_1_alg».proof.Proof.RefValue
import Idealize.ShloMosaic.Adequacy
import Idealize.ShloMosaic.Init

noncomputable section

namespace Cert.Proof

open Idealize.ShloMosaic Idealize.SL.Sem

/-- The reference's mean and variance of a pooled array are the kernel program's: the same host operations. -/
theorem meanR_eq (P : Cert.KernelIdeal.S8x64x256.Idx → EReal) :
    Cert.ReferenceIdeal.RefRun.meanR (F := Ideal) P = Cert.KernelIdeal.Glue.meanOf (F := Ideal) P := rfl
theorem varR_eq (P : Cert.KernelIdeal.S8x64x256.Idx → EReal) :
    Cert.ReferenceIdeal.RefRun.varR (F := Ideal) P = Cert.KernelIdeal.Glue.varOf (F := Ideal) P := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the result array at `resultOf` of the arguments. -/
theorem algebraic : Cert.algebraic_KernelIdeal_ReferenceIdeal := by
  intro m ρ m' ρ' _ hagree
  refine ⟨fun c => Cert.KernelIdeal.KernelValue.resultOf m c, Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6, Cert.ReferenceIdeal.RefValue.ref_out, Cert.ReferenceIdeal.RefRun.val_v9_eq,
    Cert.ReferenceIdeal.RefRun.val_v16_eq, Cert.ReferenceIdeal.RefValue.ref_pool, meanR_eq, varR_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
